-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S512x512 .f32 .bf16
  ∧ IdealRules.truncf_extf.Statement Cert.KernelIdeal.S512x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x512 : Shape := ⟨2, ![64, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S64x512x512 .f32) (main_arg1 : FVec F S64x512 .f32) (main_arg2 : FVec F S64x512x512 .f32) (main_arg3 : FVec F S64x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512x512 .f32 := Host.absf main_arg2
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S64x512x512 : Shape := ⟨3, ![64, 512, 512]⟩
abbrev S64x512 : Shape := ⟨2, ![64, 512]⟩
abbrev S64x512x1 : Shape := ⟨3, ![64, 512, 1]⟩
abbrev S64x1x512 : Shape := ⟨3, ![64, 1, 512]⟩
abbrev S2x512x512 : Shape := ⟨3, ![2, 512, 512]⟩
abbrev S2x512x1 : Shape := ⟨3, ![2, 512, 1]⟩
abbrev S2x1x512 : Shape := ⟨3, ![2, 1, 512]⟩
abbrev S1x512x512 : Shape := ⟨3, ![1, 512, 512]⟩
abbrev S512x512 : Shape := ⟨2, ![512, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩

abbrev nBuf : Space → Nat
  | .hbm => 8
  | .vmem => 12
  | .smem => 0
  | _ => 0

abbrev bufTy : (tb : Table) → Fin (tcTables nBuf tb) → BufTy
  | .hbm, ⟨0, _⟩ => ⟨S64x512x512, .f32⟩
  | .hbm, ⟨1, _⟩ => ⟨S64x512, .f32⟩
  | .hbm, ⟨2, _⟩ => ⟨S64x512x512, .f32⟩
  | .hbm, ⟨3, _⟩ => ⟨S64x512, .f32⟩
  | .hbm, ⟨4, _⟩ => ⟨S64x512x1, .f32⟩
  | .hbm, ⟨5, _⟩ => ⟨S64x1x512, .f32⟩
  | .hbm, ⟨6, _⟩ => ⟨S64x512x512, .f32⟩
  | .hbm, ⟨7, _⟩ => ⟨S64x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x1, .f32⟩
  | .local _ .vmem, ⟨5, _⟩ => ⟨S2x512x1, .f32⟩
  | .local _ .vmem, ⟨6, _⟩ => ⟨S2x1x512, .f32⟩
  | .local _ .vmem, ⟨7, _⟩ => ⟨S2x1x512, .f32⟩
  | .local _ .vmem, ⟨8, _⟩ => ⟨S2x512x512, .f32⟩
  | .local _ .vmem, ⟨9, _⟩ => ⟨S2x512x512, .f32⟩
  | .local _ .vmem, ⟨10, _⟩ => ⟨S2x512x512, .f32⟩
  | .local _ .vmem, ⟨11, _⟩ => ⟨S2x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x512_S64x512x1 : S64x512.ShapeCasts S64x512x1
  shapeCasts_S64x512_S64x1x512 : S64x512.ShapeCasts S64x1x512
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  bitsLt_bf16_f32 : FTy.bits .bf16 < FTy.bits .f32
  transposes_S512x512_p1_0_S512x512 : S512x512.Transposes [1, 0] S512x512
  inb_S2x512x1_S1x512x1_0_0_0 : ∀ a, (![0, 0, 0] : Fin 3 → Nat) a + S1x512x1.size a ≤ S2x512x1.size a
  h_S1x512x1 : 0 < S1x512x1.numel
  shapeCasts_S1x512x1_S512x1 : S1x512x1.ShapeCasts S512x1
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  shapeCasts_S512x512_S1x512x512 : S512x512.ShapeCasts S1x512x512
  inb_S2x512x512_S1x512x512_1_0_0 : ∀ a, (![1, 0, 0] : Fin 3 → Nat) a + S1x512x512.size a ≤ S2x512x512.size a
  inb_S2x512x1_S1x512x1_1_0_0 : ∀ a, (![1, 0, 0] : Fin 3 → Nat) a + S1x512x1.size a ≤ S2x512x1.size a
  inb_S2x1x512_S1x1x512_1_0_0 : ∀ a, (![1, 0, 0] : Fin 3 → Nat) a + S1x1x512.size a ≤ S2x1x512.size a
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S64x512x512.size a
  hwx0_0 : ∀ i : grid0.Coords, EltTy.bits .f32 = 32 ∨ (Rect.block (s := S64x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .f32 = 32 ∨ (Rect.block (s := S64x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x1.size a ≤ S64x512x1.size a
  hwx0_2 : ∀ i : grid0.Coords, EltTy.bits .f32 = 32 ∨ (Rect.block (s := S64x512x1) S2x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x512.size a ≤ S64x1x512.size a
  hwx0_3 : ∀ i : grid0.Coords, EltTy.bits .f32 = 32 ∨ (Rect.block (s := S64x1x512) S2x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x512.size a ≤ S64x512x512.size a
  hwx0_4 : ∀ i : grid0.Coords, EltTy.bits .f32 = 32 ∨ (Rect.block (s := S64x512x512) S2x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x512x512.size a ≤ S64x512x512.size a
  hwx0_5 : ∀ i : grid0.Coords, EltTy.bits .f32 = 32 ∨ (Rect.block (s := S64x512x512) S2x512x512.size (cc0_transform_5 i) (hinb0_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2x512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2x512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x512 : Shape := ⟨2, ![64, 512]⟩
abbrev S64x1x512 : Shape := ⟨3, ![64, 1, 512]⟩
abbrev S_ : Shape := ⟨0, ![]⟩
abbrev S64x512x1 : Shape := ⟨3, ![64, 512, 1]⟩

abbrev nBuf : Space → Nat
  | .hbm => 54
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x512, .f32⟩
  | .hbm, ⟨2, _⟩ => ⟨S64x512x512, .f32⟩
  | .hbm, ⟨3, _⟩ => ⟨S64x512, .f32⟩
  | .hbm, ⟨4, _⟩ => ⟨S64x512x512, .f32⟩
  | .hbm, ⟨5, _⟩ => ⟨S64x1x512, .f32⟩
  | .hbm, ⟨6, _⟩ => ⟨S_, .f32⟩
  | .hbm, ⟨7, _⟩ => ⟨S64x1x512, .f32⟩
  | .hbm, ⟨8, _⟩ => ⟨S64x1x512, .f32⟩
  | .hbm, ⟨9, _⟩ => ⟨S_, .f32⟩
  | .hbm, ⟨10, _⟩ => ⟨S64x1x512, .f32⟩
  | .hbm, ⟨11, _⟩ => ⟨S64x1x512, .f32⟩
  | .hbm, ⟨12, _⟩ => ⟨S64x1x512, .f32⟩
  | .hbm, ⟨13, _⟩ => ⟨S_, .f32⟩
  | .hbm, ⟨14, _⟩ => ⟨S64x1x512, .f32⟩
  | .hbm, ⟨15, _⟩ => ⟨S64x1x512, .f32⟩
  | .hbm, ⟨16, _⟩ => ⟨S_, .f32⟩
  | .hbm, ⟨17, _⟩ => ⟨S64x1x512, .f32⟩
  | .hbm, ⟨18, _⟩ => ⟨S64x1x512, .f32⟩
  | .hbm, ⟨19, _⟩ => ⟨S64x512x512, .f32⟩
  | .hbm, ⟨20, _⟩ => ⟨S64x512x512, .f32⟩
  | .hbm, ⟨21, _⟩ => ⟨S_, .f32⟩
  | .hbm, ⟨22, _⟩ => ⟨S64x512, .f32⟩
  | .hbm, ⟨23, _⟩ => ⟨S_, .f32⟩
  | .hbm, ⟨24, _⟩ => ⟨S64x512, .f32⟩
  | .hbm, ⟨25, _⟩ => ⟨S64x512, .f32⟩
  | .hbm, ⟨26, _⟩ => ⟨S64x512x1, .f32⟩
  | .hbm, ⟨27, _⟩ => ⟨S64x512x512, .f32⟩
  | .hbm, ⟨28, _⟩ => ⟨S64x512x512, .f32⟩
  | .hbm, ⟨29, _⟩ => ⟨S64x512x512, .f32⟩
  | .hbm, ⟨30, _⟩ => ⟨S_, .f32⟩
  | .hbm, ⟨31, _⟩ => ⟨S64x512, .f32⟩
  | .hbm, ⟨32, _⟩ => ⟨S64x512x1, .f32⟩
  | .hbm, ⟨33, _⟩ => ⟨S64x512x512, .f32⟩
  | .hbm, ⟨34, _⟩ => ⟨S64x512x512, .f32⟩
  | .hbm, ⟨35, _⟩ => ⟨S64x512x512, .f32⟩
  | .hbm, ⟨36, _⟩ => ⟨S64x512x512, .f32⟩
  | .hbm, ⟨37, _⟩ => ⟨S64x512x512, .f32⟩
  | .hbm, ⟨38, _⟩ => ⟨S_, .f32⟩
  | .hbm, ⟨39, _⟩ => ⟨S64x512, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S64x512x1, .f32⟩
  | .hbm, ⟨44, _⟩ => ⟨S64x512x512, .f32⟩
  | .hbm, ⟨45, _⟩ => ⟨S64x512x512, .f32⟩
  | .hbm, ⟨46, _⟩ => ⟨S64x512x512, .f32⟩
  | .hbm, ⟨47, _⟩ => ⟨S_, .f32⟩
  | .hbm, ⟨48, _⟩ => ⟨S64x512, .f32⟩
  | .hbm, ⟨49, _⟩ => ⟨S64x512x1, .f32⟩
  | .hbm, ⟨50, _⟩ => ⟨S64x512x512, .f32⟩
  | .hbm, ⟨51, _⟩ => ⟨S64x512x512, .f32⟩
  | .hbm, ⟨52, _⟩ => ⟨S64x512x512, .f32⟩
  | .hbm, ⟨53, _⟩ => ⟨S64x512x512, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S64x512_S64x1x512_0_2 : S64x512.BroadcastsInDim S64x1x512 (![0, 2] : Fin 2 → Fin S64x1x512.rank)
  bcast_S_S64x1x512 : S_.BroadcastsInDim S64x1x512 (![] : Fin 0 → Fin S64x1x512.rank)
  bcast_S64x1x512_S64x512x512_0_1_2 : S64x1x512.BroadcastsInDim S64x512x512 (![0, 1, 2] : Fin 3 → Fin S64x512x512.rank)
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  transposes_S64x512x512_S64x512x512_0_2_1 : S64x512x512.Transposes [0, 2, 1] S64x512x512
  dot_S64x512x512_S64x512x512_S64x512x512_2_2_1_1_0_0_wf : DotDims.WF S64x512x512 S64x512x512 S64x512x512 [2] [2] [1] [1] [0] [0]
  dot_S64x512x512_S64x512x512_S64x512x512_2_1_1_2_0_0_wf : DotDims.WF S64x512x512 S64x512x512 S64x512x512 [2] [1] [1] [2] [0] [0]

variable [Facts₀]

def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf
def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf

class Facts : Prop extends Facts₀ where

variable [Facts]
-- ==== Proof.Spec.lean ====
/-
  Symmetric co-attention over the extended reals, as functions of the four argument arrays.

  For one batch element with sentences `A, B : 512 × 512` (rows are tokens, columns features) and token masks
  `ma, mb : 512`, the similarity is `sim a c = ∑ d, A a d * B c d`, a masked position carries the additive bias
  `(1 - mask) * (-10000)`, and each direction is a softmax-weighted combination of the other sentence's rows:

    attended_a a d = ∑ c, softmax_c (sim a c + bias_b c) * B c d      (row `a` of the scores, over `c`)
    attended_b c d = ∑ a, softmax_a (sim a c + bias_a a) * A a d      (column `c` of the scores, over `a`)

  where `softmax_k s = exp (s k - max s) / ∑ k', exp (s k' - max s)`.

  One score row `s : κ → EReal` and one value column `v : κ → EReal` give the three ways the programs spell the same
  weighted combination: the quotient taken term by term (`attendRef`), the reciprocal of the mass multiplied in after
  the contraction (`attendPost`), or multiplied into each weight before it (`attendPre`). They agree whenever the mass
  is a nonzero real, which holds as soon as every score of the row is real (the row's maximum is then attained, so one
  exponential is `exp 0 = 1`): that is where finiteness of the inputs is used, and nowhere else.
-/
import Idealize.ShloMosaic.PureOps.Ideal
import Idealize.ShloMosaic.Lib.ValueIdx

noncomputable section

namespace Cert.CoAttention

open Idealize.ShloMosaic Idealize.ShloMosaic.ValueIdx

/-! ## One row of scores against one column of values -/

section Row
variable {κ : Type} [Fintype κ]

/-- The literal `1.0`, as both programs print it. -/
def one : EReal := Ideal.ofBits .f32 0x3F800000#32
/-- The literal `-10000.0`, the additive bias of a masked position. -/
def negBig : EReal := Ideal.ofBits .f32 0xC61C4000#32

/-- The largest score of a row: the fold of `max` from `-∞`. -/
def rowMax (s : κ → EReal) : EReal := (Finset.univ : Finset κ).fold max ⊥ s
/-- The unnormalized softmax weight of position `k`: `exp (s k - max s)`. -/
def expo (s : κ → EReal) (k : κ) : EReal := Ideal.exp (s k - rowMax s)
/-- The softmax denominator: the sum of the row's weights. -/
def mass (s : κ → EReal) : EReal := ∑ k, expo s k

/-- The weighted combination with each weight DIVIDED by the mass before the contraction. -/
def attendRef (s v : κ → EReal) : EReal := ∑ k, Ideal.div (expo s k) (mass s) * v k
/-- The same with the contraction first and the reciprocal of the mass multiplied in afterwards. -/
def attendPost (s v : κ → EReal) : EReal := (∑ k, expo s k * v k) * Ideal.div one (mass s)
/-- The same with the reciprocal of the mass multiplied into each weight before the contraction. -/
def attendPre (s v : κ → EReal) : EReal := ∑ k, (expo s k * Ideal.div one (mass s)) * v k

end Row

/-- Every entry of an array is a real number (neither infinity). -/
def AllReal {ι : Type} (x : ι → EReal) : Prop := ∀ i, ∃ r : ℝ, x i = (r : EReal)

/-! ## The arrays -/

/-- A batch of 64 sentences of 512 tokens by 512 features. -/
abbrev Sent := (⟨3, ![64, 512, 512]⟩ : Shape).Idx → EReal
/-- A batch of 64 token masks. -/
abbrev Mask := (⟨2, ![64, 512]⟩ : Shape).Idx → EReal

/-- Similarity of token `a` of the first sentence and token `c` of the second, in batch `b`. -/
def sim (xa xb : Sent) (b : Fin 64) (a c : Fin 512) : EReal := ∑ d : Fin 512, xa (ix3 b a d) * xb (ix3 b c d)
/-- The additive bias of position `x` under a mask: `0` where the mask is `1`, `-10000` where it is `0`. -/
def bias (mk : Mask) (b : Fin 64) (x : Fin 512) : EReal := (one - mk (ix2 b x)) * negBig

/-- Row `a` of the first direction's scores, over the second sentence's tokens `c`. -/
def scoreA (xa xb : Sent) (mb : Mask) (b : Fin 64) (a : Fin 512) : Fin 512 → EReal :=
  fun c => sim xa xb b a c + bias mb b c
/-- Column `c` of the second direction's scores, over the first sentence's tokens `a`. -/
def scoreB (xa xb : Sent) (ma : Mask) (b : Fin 64) (c : Fin 512) : Fin 512 → EReal :=
  fun a => sim xa xb b a c + bias ma b a

/-- `attended_a`, quotient form: the first sentence's tokens attending over the second sentence. -/
def GA (xa xb : Sent) (mb : Mask) : Sent :=
  fun i => attendRef (scoreA xa xb mb (i 0) (i 1)) (fun c => xb (ix3 (i 0) c (i 2)))
/-- `attended_b`, quotient form: the second sentence's tokens attending over the first sentence. -/
def GB (xa xb : Sent) (ma : Mask) : Sent :=
  fun i => attendRef (scoreB xa xb ma (i 0) (i 1)) (fun a => xa (ix3 (i 0) a (i 2)))

/-- `attended_a` with the reciprocal of the mass applied after the contraction. -/
def KA (xa xb : Sent) (mb : Mask) : Sent :=
  fun i => attendPost (scoreA xa xb mb (i 0) (i 1)) (fun c => xb (ix3 (i 0) c (i 2)))
/-- `attended_b` with the reciprocal of the mass applied to each weight before the contraction. -/
def KB (xa xb : Sent) (ma : Mask) : Sent :=
  fun i => attendPre (scoreB xa xb ma (i 0) (i 1)) (fun a => xa (ix3 (i 0) a (i 2)))

end Cert.CoAttention

end
-- ==== Proof.SpecLaws.lean ====
/-
  The three spellings of one softmax-weighted combination agree on real score rows, and hence the two
  directions of co-attention agree with their quotient forms on real inputs.

  A finite nonempty row of real scores has a real maximum, so each weight `exp (s k - max s)` is a positive
  real and the mass, a finite nonempty sum of positive reals, is a positive real `r`. Division by `r` is then
  multiplication by the nonnegative real `1 / r`, and a nonnegative real factor distributes over a finite sum of
  arbitrary extended reals. The values being combined are never assumed real.
-/
import proofs.«401247_j30502857736672_3_alg».proof.Proof.Spec
import Mathlib.Data.Finset.Fold
import Mathlib.Data.EReal.Operations
import Mathlib.Data.EReal.Inv

noncomputable section

namespace Cert.CoAttention

open Idealize.ShloMosaic Idealize.ShloMosaic.ValueIdx

/-! ## Real numbers inside the extended reals -/

/-- A finite sum of reals, taken in the extended reals, is the real sum. -/
theorem coe_finset_sum {ι : Type} (t : Finset ι) (f : ι → ℝ) :
    (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- A nonnegative real factor distributes over a finite sum of arbitrary extended reals. -/
theorem finset_sum_mul_of_nonneg_of_ne_top {ι : Type} (t : Finset ι) (x : ι → EReal) {c : EReal}
    (h0 : 0 ≤ c) (hc : c ≠ ⊤) : (∑ k ∈ t, x k) * c = ∑ k ∈ t, x k * c := by
  classical
  induction t using Finset.induction_on with
  | empty => simp
  | insert a t ha ih =>
    rw [Finset.sum_insert ha, Finset.sum_insert ha, EReal.right_distrib_of_nonneg_of_ne_top h0 hc, ih]

/-- Reals are closed under addition. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- Reals are closed under subtraction. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- Reals are closed under multiplication. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- Reals are closed under finite sums. -/
theorem real_finset_sum {ι : Type} (t : Finset ι) {x : ι → EReal} (hx : ∀ k, ∃ r : ℝ, x k = (r : EReal)) :
    ∃ r : ℝ, (∑ k ∈ t, x k) = (r : EReal) := by
  choose f hf using hx
  exact ⟨∑ k ∈ t, f k, by rw [← coe_finset_sum]; exact Finset.sum_congr rfl fun k _ => hf k⟩

/-! ## The two literals -/

/-- The pattern `0x3F800000` is the number one. -/
theorem one_eq_one : one = 1 := by
  unfold one
  simp [Ideal.ofBits, Ideal.ieee, -EReal.coe_mul]
  norm_num

/-- The pattern `0xC61C4000` is a real number. -/
theorem negBig_real : ∃ r : ℝ, negBig = (r : EReal) := by
  unfold negBig
  simp [Ideal.ofBits, Ideal.ieee, -EReal.coe_mul]
  exact ⟨_, rfl⟩

/-! ## One row -/

section Row
variable {κ : Type} [Fintype κ]

/-- The maximum of a finite nonempty row of reals is real: it is at least one real entry, and below `⊤` because
    every entry and the starting value `⊥` are. -/
theorem rowMax_real [Nonempty κ] {s : κ → EReal} (hs : AllReal s) : ∃ m : ℝ, rowMax s = (m : EReal) := by
  have hbot : rowMax s ≠ ⊥ := by
    obtain ⟨k0⟩ := ‹Nonempty κ›
    obtain ⟨r, hr⟩ := hs k0
    have hle : s k0 ≤ rowMax s := (Finset.le_fold_max _).2 (Or.inr ⟨k0, Finset.mem_univ _, le_rfl⟩)
    intro h
    rw [h, hr] at hle
    exact absurd hle (not_le.2 (EReal.bot_lt_coe r))
  have htop : rowMax s ≠ ⊤ := by
    have hlt : rowMax s < ⊤ := (Finset.fold_max_lt _).2 ⟨bot_lt_top, fun k _ => by
      obtain ⟨r, hr⟩ := hs k; rw [hr]; exact EReal.coe_lt_top r⟩
    exact hlt.ne
  exact ⟨(rowMax s).toReal, (EReal.coe_toReal htop hbot).symm⟩

/-- With every score real, the mass is a positive real: each weight is the exponential of a real, and there is at
    least one. -/
theorem mass_pos_real [Nonempty κ] {s : κ → EReal} (hs : AllReal s) :
    ∃ r : ℝ, 0 < r ∧ mass s = (r : EReal) := by
  obtain ⟨m, hm⟩ := rowMax_real hs
  choose f hf using hs
  have he : ∀ k, expo s k = ((Real.exp (f k - m) : ℝ) : EReal) := fun k => by
    rw [expo, hf k, hm, ← EReal.coe_sub, Ideal.exp_coe]
  refine ⟨∑ k, Real.exp (f k - m), Finset.sum_pos (fun k _ => Real.exp_pos _) Finset.univ_nonempty, ?_⟩
  rw [mass, ← coe_finset_sum]
  exact Finset.sum_congr rfl fun k _ => he k

/-- Multiplying the reciprocal of the mass into each weight is dividing each weight by the mass. -/
theorem attendPre_eq_attendRef [Nonempty κ] {s : κ → EReal} (hs : AllReal s) (v : κ → EReal) :
    attendPre s v = attendRef s v := by
  obtain ⟨r, hr, hmass⟩ := mass_pos_real hs
  unfold attendPre attendRef
  refine Finset.sum_congr rfl fun k _ => ?_
  rw [hmass, Ideal.div_coe hr.ne', Ideal.div_coe hr.ne', one_eq_one, one_mul]

/-- Multiplying the reciprocal of the mass in after the contraction is dividing each weight by the mass: the
    reciprocal is a nonnegative real, so it distributes over the sum whatever the values are. -/
theorem attendPost_eq_attendRef [Nonempty κ] {s : κ → EReal} (hs : AllReal s) (v : κ → EReal) :
    attendPost s v = attendRef s v := by
  obtain ⟨r, hr, hmass⟩ := mass_pos_real hs
  have h0 : (0 : EReal) ≤ ((1 / r : ℝ) : EReal) := EReal.coe_nonneg.2 (one_div_pos.2 hr).le
  unfold attendPost attendRef
  rw [hmass, Ideal.div_coe hr.ne', one_eq_one, one_mul,
    finset_sum_mul_of_nonneg_of_ne_top _ _ h0 (EReal.coe_ne_top _)]
  refine Finset.sum_congr rfl fun k _ => ?_
  rw [Ideal.div_coe hr.ne', mul_right_comm]

end Row

/-! ## The score rows are real -/

/-- A similarity of real sentences is real: a finite sum of products of reals. -/
theorem sim_real {xa xb : Sent} (ha : AllReal xa) (hb : AllReal xb) (b : Fin 64) (a c : Fin 512) :
    ∃ r : ℝ, sim xa xb b a c = (r : EReal) :=
  real_finset_sum _ fun d => real_mul (ha (ix3 b a d)) (hb (ix3 b c d))

/-- The bias of a real mask is real. -/
theorem bias_real {mk : Mask} (hm : AllReal mk) (b : Fin 64) (x : Fin 512) :
    ∃ r : ℝ, bias mk b x = (r : EReal) :=
  real_mul (real_sub ⟨1, one_eq_one⟩ (hm (ix2 b x))) negBig_real

theorem scoreA_real {xa xb : Sent} {mb : Mask} (ha : AllReal xa) (hb : AllReal xb) (hm : AllReal mb)
    (b : Fin 64) (a : Fin 512) : AllReal (scoreA xa xb mb b a) :=
  fun c => real_add (sim_real ha hb b a c) (bias_real hm b c)

theorem scoreB_real {xa xb : Sent} {ma : Mask} (ha : AllReal xa) (hb : AllReal xb) (hm : AllReal ma)
    (b : Fin 64) (c : Fin 512) : AllReal (scoreB xa xb ma b c) :=
  fun a => real_add (sim_real ha hb b a c) (bias_real hm b a)

/-! ## The two directions -/

/-- The first direction: the reciprocal applied after the contraction equals the quotient form. -/
theorem KA_eq_GA (xa xb : Sent) (mb : Mask) (ha : AllReal xa) (hb : AllReal xb) (hm : AllReal mb) :
    KA xa xb mb = GA xa xb mb := by
  funext i
  exact attendPost_eq_attendRef (scoreA_real ha hb hm (i 0) (i 1)) _

/-- The second direction: the reciprocal applied to each weight equals the quotient form. -/
theorem KB_eq_GB (xa xb : Sent) (ma : Mask) (ha : AllReal xa) (hb : AllReal xb) (hm : AllReal ma) :
    KB xa xb ma = GB xa xb ma := by
  funext i
  exact attendPre_eq_attendRef (scoreB_real ha hb hm (i 0) (i 1)) _

end Cert.CoAttention

end
-- ==== Proof.Finite.lean ====
/-
  The precondition, read back: all four argument arrays hold real numbers.

  The predicate is the conjunction of four tests `all (|x| < +∞)`, one per argument. Each `all` is a reduction by
  `and` from 1 over every axis, so the value 1 means every element passed its test; the test at one element says
  `max x (-x) < ⊤` in the extended reals, which fails at both infinities (there `max x (-x) = ⊤`) and so leaves a real.
-/
import proofs.«401247_j30502857736672_3_alg».proof.Proof.Spec
import proofs.«401247_j30502857736672_3_alg».proof.Proof.Gen.Pre_finite_inputs
import Idealize.ShloMosaic.Lib.ReduceAll

namespace Cert.CoAttention

open Idealize.ShloMosaic Idealize.ShloMosaic.ValueIdx

/-- The f32 pattern `0x7F800000` (all-ones exponent, zero fraction, sign clear) denotes `+∞`. -/
theorem ofBits_posInf : Ideal.ofBits .f32 0x7F800000#32 = (⊤ : EReal) := by
  simp [Ideal.ofBits, Ideal.ieee]

/-- An extended real whose absolute value `max x (-x)` lies strictly below `+∞` is a real number: at `⊤` the maximum
    is `⊤` itself, at `⊥` it is `-⊥ = ⊤`. -/
theorem exists_real_of_abs_lt_top (x : EReal) (h : max x (-x) < ⊤) : ∃ r : ℝ, x = (r : EReal) := by
  induction x using EReal.rec with
  | bot => simp at h
  | coe r => exact ⟨r, rfl⟩
  | top => simp at h

/-- The test at one element: the comparison `|x| < +∞` came out 1, so `x` is real. -/
theorem exists_real_of_cmp (x : EReal)
    (h : Ideal.cmp .olt (max x (-x)) (Ideal.ofBits .f32 0x7F800000#32) = 1#1) : ∃ r : ℝ, x = (r : EReal) := by
  rw [ofBits_posInf] at h
  refine exists_real_of_abs_lt_top x ?_
  by_contra hn
  simp [Ideal.cmp, hn] at h

/-- The scalar shape has one index. -/
instance : Subsingleton Cert.Pre_finite_inputs.S_.Idx := ⟨fun a b => funext fun d => d.elim0⟩

/-- One conjunct: a reduction by `and` over all axes of the array of tests `|x i| < +∞` that is 1 makes every `x i` real. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf x) (broadcastInDim s ![] hb (constant Cert.Pre_finite_inputs.S_ .f32 0x7F800000#32)))
        init hr hu j = 1#1) : AllReal x := by
  intro i
  have hi := Host.reduce_andi_all _ init hr hu j e i
  exact exists_real_of_cmp (x i) hi

/-- The precondition gives the four finiteness facts: split the conjunction, then read each `all`. -/
theorem allReal_of_finite_inputs (x0 : FVec Ideal Cert.Pre_finite_inputs.S64x512x512 .f32) (x1 : FVec Ideal Cert.Pre_finite_inputs.S64x512 .f32) (x2 : FVec Ideal Cert.Pre_finite_inputs.S64x512x512 .f32) (x3 : FVec Ideal Cert.Pre_finite_inputs.S64x512 .f32)
    (h : Cert.Pre_finite_inputs.fn (F := Ideal) x0 x1 x2 x3 = fun _ => 1#1) : AllReal x0 ∧ AllReal x1 ∧ AllReal x2 ∧ AllReal x3 := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨allReal_of_all x0 _ _ _ _ _ e0, allReal_of_all x1 _ _ _ _ _ e1,
    allReal_of_all x2 _ _ _ _ _ e2, allReal_of_all x3 _ _ _ _ _ e3⟩

end Cert.CoAttention
-- ==== Proof.RefValue.lean ====
/-
  The reference program read index by index: its two results are the quotient forms `GA` and `GB` of the
  co-attention, as functions of the four argument arrays.

  Each stage of the reference is read at an index `(b, a, c)` of the score array (or `(b, a)` of a row statistic):
  the similarity is the contraction over the feature axis, the masked positions carry the additive bias
  `(1 - mask) * (-10000)`, the row maximum is the fold of `max` from `-∞` over the last axis (and `max (-∞) m = m`),
  the weight is `exp (s c - max s)`, the mass is `0 +` the sum of the weights, and the result is the contraction of
  the weights, each divided by the mass, against the other sentence's rows. The second direction is the same over the
  transposed similarity and the first sentence's mask.
-/
import proofs.«401247_j30502857736672_3_alg».proof.Proof.Spec
import proofs.«401247_j30502857736672_3_alg».proof.Proof.Gen.ReferenceIdeal.Read

noncomputable section

namespace Cert.CoAttention

open Idealize.ShloMosaic Idealize.ShloMosaic.ValueIdx Cert.ReferenceIdeal Cert.ReferenceIdeal.Gen Cert.ReferenceIdeal.Read

/-- A batch of sentences, as the reference program types it. -/
abbrev A3 := (⟨S64x512x512, .f32⟩ : BufTy).Contents (Elt Ideal)
/-- A batch of masks, as the reference program types it. -/
abbrev A2 := (⟨S64x512, .f32⟩ : BufTy).Contents (Elt Ideal)

/-- The word `0xFF800000` is `-∞`. -/
theorem negInf_eq_bot : Ideal.ofBits .f32 0xFF800000#32 = (⊥ : EReal) := by
  simp [Ideal.ofBits, Ideal.ieee]

/-! ## A maximum over the last axis -/

/-- Dropping the last axis of the score array's shape leaves the row statistics' shape. -/
theorem red2 : S64x512x512.Reduces [2] S64x512 := by decide

/-- The reduced index `(b, a)` with `k` put back on the last axis is `(b, a, k)`. -/
theorem lift_last (b : Fin 64) (a : Fin 512) (k : Fin 512) :
    red2.lift (ix2 b a) k = ix3 b a k := by
  funext c; apply Fin.ext
  fin_cases c <;> rfl

/-- From `-∞` a reduce with a maximum body over the last axis is, at `(b, a)`, the row's maximum. -/
theorem fold_max_rows (y : S64x512x512.Idx → Ideal .f32) (b : Fin 64) (a : Fin 512) :
    Host.reduce (FloatOps.maximumf (F := Ideal) (φ := .f32)) y (constant (F := Ideal) S_ .f32 0xFF800000#32) reducesTo_S64x512x512_S64x512_d2 h_S_ (ix2 b a)
      = rowMax fun c : Fin 512 => y (ix3 b a c) := by
  rw [Host.reduce_eq_fold_single (FloatOps.maximumf (F := Ideal) (φ := .f32)) y _ reducesTo_S64x512x512_S64x512_d2 red2 h_S_]
  unfold rowMax
  have hf : (y ∘ red2.lift (ix2 b a)) = fun k : Fin 512 => y (ix3 b a k) :=
    funext fun k => congrArg y (lift_last b a k)
  show Finset.fold max (Ideal.ofBits .f32 0xFF800000#32) (y ∘ red2.lift (ix2 b a)) (Finset.univ : Finset (Fin 512)) = _
  rw [hf, negInf_eq_bot]
  rfl

/-! ## The first direction: the similarity under the second sentence's mask -/

/-- The broadcast bias of the second mask at `(b, a, c)` is the bias of position `c`. -/
theorem ref_biasB (x3 : A2) (b : Fin 64) (a c : Fin 512) :
    val_main_v11 (F := Ideal) x3 (ix3 b a c) = bias x3 b c := by
  rw [val_main_v11_apply, val_main_v10_apply, val_main_v8_apply, val_main_v7_apply, val_main_cst_1_apply,
    val_main_v6_apply, val_main_v9_apply, val_main_cst_2_apply]
  have hi : idx_main_v6 (idx_main_v11 (ix3 b a c)) = ix2 b c :=
    funext fun t => by match t with | ⟨0, _⟩ => rfl | ⟨1, _⟩ => rfl
  rw [hi]
  rfl

/-- The first contraction at `(b, a, c)` is the similarity of tokens `a` and `c`. -/
theorem ref_sim (x0 x2 : A3) (b : Fin 64) (a c : Fin 512) :
    val_main_v0 (F := Ideal) x0 x2 (ix3 b a c) = sim x0 x2 b a c := by
  rw [val_main_v0_apply]
  unfold sim
  refine Finset.sum_congr rfl fun k _ => ?_
  have hl : lidx_main_v0 (ix3 b a c) k = ix3 b a k :=
    funext fun t => by match t with | ⟨0, _⟩ => rfl | ⟨1, _⟩ => rfl | ⟨2, _⟩ => rfl
  have hr : ridx_main_v0 (ix3 b a c) k = ix3 b c k :=
    funext fun t => by match t with | ⟨0, _⟩ => rfl | ⟨1, _⟩ => rfl | ⟨2, _⟩ => rfl
  rw [hl, hr]

/-- The biased scores at `(b, a, c)`. -/
theorem ref_scoreA (x0 x2 : A3) (x3 : A2) (b : Fin 64) (a c : Fin 512) :
    val_main_v12 (F := Ideal) x0 x2 x3 (ix3 b a c) = scoreA x0 x2 x3 b a c := by
  rw [val_main_v12_apply, ref_sim, ref_biasB]
  rfl

/-- The reduce of the scores over `c`, at `(b, a)`, is the row maximum. -/
theorem ref_rowMaxA (x0 x2 : A3) (x3 : A2) (b : Fin 64) (a : Fin 512) :
    val_main_v13 (F := Ideal) x0 x2 x3 (ix2 b a) = rowMax (scoreA x0 x2 x3 b a) := by
  unfold val_main_v13
  rw [show (val_main_cst_3 (F := Ideal)) = constant (F := Ideal) S_ .f32 0xFF800000#32 from rfl, fold_max_rows]
  exact congrArg rowMax (funext fun c => ref_scoreA x0 x2 x3 b a c)

/-- The row maximum after `max (-∞) ·` and its two broadcasts. -/
theorem ref_rowMaxA' (x0 x2 : A3) (x3 : A2) (b : Fin 64) (a c : Fin 512) :
    val_main_v17 (F := Ideal) x0 x2 x3 (ix3 b a c) = rowMax (scoreA x0 x2 x3 b a) := by
  rw [val_main_v17_apply, val_main_v16_apply, val_main_v15_apply, val_main_v14_apply, val_main_cst_4_apply]
  have hi : idx_main_v16 (idx_main_v17 (ix3 b a c)) = ix2 b a :=
    funext fun t => by match t with | ⟨0, _⟩ => rfl | ⟨1, _⟩ => rfl
  rw [hi, ref_rowMaxA, Ideal.ofBits_def, negInf_eq_bot, Ideal.maximumf_def, bot_sup_eq]

/-- The unnormalized weight at `(b, a, c)`. -/
theorem ref_expoA (x0 x2 : A3) (x3 : A2) (b : Fin 64) (a c : Fin 512) :
    val_main_v19 (F := Ideal) x0 x2 x3 (ix3 b a c) = expo (scoreA x0 x2 x3 b a) c := by
  rw [val_main_v19_apply, val_main_v18_apply, ref_scoreA, ref_rowMaxA', Ideal.subf_def, Ideal.hostUnary_exp_def]
  rfl

/-- The sum of the weights over `c` from `0`, at `(b, a)`, is the mass. -/
theorem ref_massA (x0 x2 : A3) (x3 : A2) (b : Fin 64) (a : Fin 512) :
    val_main_v20 (F := Ideal) x0 x2 x3 (ix2 b a) = mass (scoreA x0 x2 x3 b a) := by
  rw [val_main_v20_apply, val_main_cst_5_apply, Ideal.ofBits_def, Ideal.ofBits_zero_f32, zero_add]
  unfold mass
  refine Finset.sum_congr rfl fun k _ => ?_
  have hi : idx_main_v20 (ix2 b a) k = ix3 b a k :=
    funext fun t => by match t with | ⟨0, _⟩ => rfl | ⟨1, _⟩ => rfl | ⟨2, _⟩ => rfl
  rw [hi, ref_expoA]

/-- The mass after its two broadcasts. -/
theorem ref_massA' (x0 x2 : A3) (x3 : A2) (b : Fin 64) (a c : Fin 512) :
    val_main_v22 (F := Ideal) x0 x2 x3 (ix3 b a c) = mass (scoreA x0 x2 x3 b a) := by
  rw [val_main_v22_apply, val_main_v21_apply]
  have hi : idx_main_v21 (idx_main_v22 (ix3 b a c)) = ix2 b a :=
    funext fun t => by match t with | ⟨0, _⟩ => rfl | ⟨1, _⟩ => rfl
  rw [hi, ref_massA]

/-- The normalized weight at `(b, a, c)`. -/
theorem ref_weightA (x0 x2 : A3) (x3 : A2) (b : Fin 64) (a c : Fin 512) :
    val_main_v23 (F := Ideal) x0 x2 x3 (ix3 b a c)
      = Ideal.div (expo (scoreA x0 x2 x3 b a) c) (mass (scoreA x0 x2 x3 b a)) := by
  rw [val_main_v23_apply, ref_expoA, ref_massA', Ideal.hostDivf_def]

/-! ## The second direction: the transposed similarity under the first sentence's mask -/

/-- The broadcast bias of the first mask at `(b, c, a)` is the bias of position `a`. -/
theorem ref_biasA (x1 : A2) (b : Fin 64) (c a : Fin 512) :
    val_main_v25 (F := Ideal) x1 (ix3 b c a) = bias x1 b a := by
  rw [val_main_v25_apply, val_main_v5_apply, val_main_v3_apply, val_main_v2_apply, val_main_cst_apply,
    val_main_v1_apply, val_main_v4_apply, val_main_cst_0_apply]
  have hi : idx_main_v1 (idx_main_v25 (ix3 b c a)) = ix2 b a :=
    funext fun t => by match t with | ⟨0, _⟩ => rfl | ⟨1, _⟩ => rfl
  rw [hi]
  rfl

/-- The transposed contraction at `(b, c, a)` is the similarity of tokens `a` and `c`. -/
theorem ref_simT (x0 x2 : A3) (b : Fin 64) (c a : Fin 512) :
    val_main_v24 (F := Ideal) x0 x2 (ix3 b c a) = sim x0 x2 b a c := by
  rw [val_main_v24_apply]
  have hi : idx_main_v24 (ix3 b c a) = ix3 b a c :=
    funext fun t => by match t with | ⟨0, _⟩ => rfl | ⟨1, _⟩ => rfl | ⟨2, _⟩ => rfl
  rw [hi, ref_sim]

/-- The biased transposed scores at `(b, c, a)`. -/
theorem ref_scoreB (x0 : A3) (x1 : A2) (x2 : A3) (b : Fin 64) (c a : Fin 512) :
    val_main_v26 (F := Ideal) x0 x1 x2 (ix3 b c a) = scoreB x0 x2 x1 b c a := by
  rw [val_main_v26_apply, ref_simT, ref_biasA]
  rfl

/-- The reduce of the transposed scores over `a`, at `(b, c)`, is the column maximum. -/
theorem ref_rowMaxB (x0 : A3) (x1 : A2) (x2 : A3) (b : Fin 64) (c : Fin 512) :
    val_main_v27 (F := Ideal) x0 x1 x2 (ix2 b c) = rowMax (scoreB x0 x2 x1 b c) := by
  unfold val_main_v27
  rw [show (val_main_cst_6 (F := Ideal)) = constant (F := Ideal) S_ .f32 0xFF800000#32 from rfl, fold_max_rows]
  exact congrArg rowMax (funext fun a => ref_scoreB x0 x1 x2 b c a)

/-- The column maximum after `max (-∞) ·` and its two broadcasts. -/
theorem ref_rowMaxB' (x0 : A3) (x1 : A2) (x2 : A3) (b : Fin 64) (c a : Fin 512) :
    val_main_v31 (F := Ideal) x0 x1 x2 (ix3 b c a) = rowMax (scoreB x0 x2 x1 b c) := by
  rw [val_main_v31_apply, val_main_v30_apply, val_main_v29_apply, val_main_v28_apply, val_main_cst_7_apply]
  have hi : idx_main_v30 (idx_main_v31 (ix3 b c a)) = ix2 b c :=
    funext fun t => by match t with | ⟨0, _⟩ => rfl | ⟨1, _⟩ => rfl
  rw [hi, ref_rowMaxB, Ideal.ofBits_def, negInf_eq_bot, Ideal.maximumf_def, bot_sup_eq]

/-- The unnormalized weight at `(b, c, a)`. -/
theorem ref_expoB (x0 : A3) (x1 : A2) (x2 : A3) (b : Fin 64) (c a : Fin 512) :
    val_main_v33 (F := Ideal) x0 x1 x2 (ix3 b c a) = expo (scoreB x0 x2 x1 b c) a := by
  rw [val_main_v33_apply, val_main_v32_apply, ref_scoreB, ref_rowMaxB', Ideal.subf_def, Ideal.hostUnary_exp_def]
  rfl

/-- The sum of the weights over `a` from `0`, at `(b, c)`, is the mass. -/
theorem ref_massB (x0 : A3) (x1 : A2) (x2 : A3) (b : Fin 64) (c : Fin 512) :
    val_main_v34 (F := Ideal) x0 x1 x2 (ix2 b c) = mass (scoreB x0 x2 x1 b c) := by
  rw [val_main_v34_apply, val_main_cst_8_apply, Ideal.ofBits_def, Ideal.ofBits_zero_f32, zero_add]
  unfold mass
  refine Finset.sum_congr rfl fun k _ => ?_
  have hi : idx_main_v34 (ix2 b c) k = ix3 b c k :=
    funext fun t => by match t with | ⟨0, _⟩ => rfl | ⟨1, _⟩ => rfl | ⟨2, _⟩ => rfl
  rw [hi, ref_expoB]

/-- The mass after its two broadcasts. -/
theorem ref_massB' (x0 : A3) (x1 : A2) (x2 : A3) (b : Fin 64) (c a : Fin 512) :
    val_main_v36 (F := Ideal) x0 x1 x2 (ix3 b c a) = mass (scoreB x0 x2 x1 b c) := by
  rw [val_main_v36_apply, val_main_v35_apply]
  have hi : idx_main_v35 (idx_main_v36 (ix3 b c a)) = ix2 b c :=
    funext fun t => by match t with | ⟨0, _⟩ => rfl | ⟨1, _⟩ => rfl
  rw [hi, ref_massB]

/-- The normalized weight at `(b, c, a)`. -/
theorem ref_weightB (x0 : A3) (x1 : A2) (x2 : A3) (b : Fin 64) (c a : Fin 512) :
    val_main_v37 (F := Ideal) x0 x1 x2 (ix3 b c a)
      = Ideal.div (expo (scoreB x0 x2 x1 b c) a) (mass (scoreB x0 x2 x1 b c)) := by
  rw [val_main_v37_apply, ref_expoB, ref_massB', Ideal.hostDivf_def]

/-! ## The two results -/

/-- `attended_a` of the reference is the quotient form `GA`. -/
theorem ref_attended_a (x0 x2 : (⟨Cert.ReferenceIdeal.S64x512x512, .f32⟩ : BufTy).Contents (Elt Ideal)) (x3 : (⟨Cert.ReferenceIdeal.S64x512, .f32⟩ : BufTy).Contents (Elt Ideal)) :
    Cert.ReferenceIdeal.Read.val_main_v38 (F := Ideal) x0 x2 x3 = GA x0 x2 x3 := by
  funext i
  obtain ⟨b, a, d, rfl⟩ : ∃ b a d, i = ix3 b a d := ⟨i 0, i 1, i 2, eq_ix3 i⟩
  rw [val_main_v38_apply]
  show _ = attendRef (scoreA x0 x2 x3 b a) (fun c => x2 (ix3 b c d))
  unfold attendRef
  refine Finset.sum_congr rfl fun k _ => ?_
  have hl : lidx_main_v38 (ix3 b a d) k = ix3 b a k :=
    funext fun t => by match t with | ⟨0, _⟩ => rfl | ⟨1, _⟩ => rfl | ⟨2, _⟩ => rfl
  have hr : ridx_main_v38 (ix3 b a d) k = ix3 b k d :=
    funext fun t => by match t with | ⟨0, _⟩ => rfl | ⟨1, _⟩ => rfl | ⟨2, _⟩ => rfl
  rw [hl, hr, ref_weightA]

/-- `attended_b` of the reference is the quotient form `GB`. -/
theorem ref_attended_b (x0 : (⟨Cert.ReferenceIdeal.S64x512x512, .f32⟩ : BufTy).Contents (Elt Ideal)) (x1 : (⟨Cert.ReferenceIdeal.S64x512, .f32⟩ : BufTy).Contents (Elt Ideal)) (x2 : (⟨Cert.ReferenceIdeal.S64x512x512, .f32⟩ : BufTy).Contents (Elt Ideal)) :
    Cert.ReferenceIdeal.Read.val_main_v39 (F := Ideal) x0 x1 x2 = GB x0 x2 x1 := by
  funext i
  obtain ⟨b, c, d, rfl⟩ : ∃ b c d, i = ix3 b c d := ⟨i 0, i 1, i 2, eq_ix3 i⟩
  rw [val_main_v39_apply]
  show _ = attendRef (scoreB x0 x2 x1 b c) (fun a => x0 (ix3 b a d))
  unfold attendRef
  refine Finset.sum_congr rfl fun k _ => ?_
  have hl : lidx_main_v39 (ix3 b c d) k = ix3 b c k :=
    funext fun t => by match t with | ⟨0, _⟩ => rfl | ⟨1, _⟩ => rfl | ⟨2, _⟩ => rfl
  have hr : ridx_main_v39 (ix3 b c d) k = ix3 b k d :=
    funext fun t => by match t with | ⟨0, _⟩ => rfl | ⟨1, _⟩ => rfl | ⟨2, _⟩ => rfl
  rw [hl, hr, ref_weightB]

end Cert.CoAttention

end
-- ==== Proof.Layout.lean ====
/-
  The re-layings a [512, 512] score matrix meets, each read at an index written in coordinates: dropping and
  adding the leading unit axis of a [1, 512, 512] slab, the keepdims column [512] → [512, 1] and row [512] → [1, 512],
  their broadcasts back to the square, the transpose, and the index a reduction over one axis puts back.
-/
import Idealize.ShloMosaic.Lib.ValueIdx
import Idealize.ShloMosaic.Lib.Pipeline.Value
import Idealize.ShloMosaic.PureOps.Reduce

namespace Cert.CoAttention.Layout

open Idealize.ShloMosaic Idealize.ShloMosaic.ValueIdx

variable {α : Type}

abbrev Sq : Shape := ⟨2, ![512, 512]⟩
abbrev Slab : Shape := ⟨3, ![1, 512, 512]⟩
abbrev Col : Shape := ⟨2, ![512, 1]⟩
abbrev Row : Shape := ⟨2, ![1, 512]⟩
abbrev Line : Shape := ⟨1, ![512]⟩
abbrev SlabCol : Shape := ⟨3, ![1, 512, 1]⟩
abbrev SlabRow : Shape := ⟨3, ![1, 1, 512]⟩

/-- A slab with its unit axis dropped: entry (a, c) is the slab's (0, a, c). -/
theorem slab_to_sq (v : Slab.Idx → α) (h : Slab.ShapeCasts Sq) (a c : Fin 512) :
    shapeCast Sq v h (ix2 a c) = v (ix3 0 a c) := by
  rw [shapeCast_dropUnit_apply (n := 2) ![512, 512] v h (ix2 a c)]
  refine congrArg v (funext fun d => ?_)
  match d with
  | ⟨0, _⟩ => rfl
  | ⟨1, _⟩ => rfl
  | ⟨2, _⟩ => rfl

/-- A square with a unit axis put in front: entry (0, a, c) is the square's (a, c). -/
theorem sq_to_slab (v : Sq.Idx → α) (h : Sq.ShapeCasts Slab) (y : Slab.Idx) :
    shapeCast Slab v h y = v (ix2 (y 1) (y 2)) := by
  rw [shapeCast_addUnit_apply (n := 2) ![512, 512] v h y]
  refine congrArg v (funext fun d => ?_)
  match d with
  | ⟨0, _⟩ => rfl
  | ⟨1, _⟩ => rfl

/-- The same at explicit coordinates. -/
theorem sq_to_slab_ix (v : Sq.Idx → α) (h : Sq.ShapeCasts Slab) (z : Fin 1) (a c : Fin 512) :
    shapeCast Slab v h (ix3 z a c) = v (ix2 a c) := sq_to_slab v h (ix3 z a c)

/-- A column slab [1, 512, 1] with its unit axis dropped. -/
theorem slabCol_to_col (v : SlabCol.Idx → α) (h : SlabCol.ShapeCasts Col) (a : Fin 512) :
    shapeCast Col v h (ix2 a 0) = v (ix3 0 a 0) := by
  rw [shapeCast_dropUnit_apply (n := 2) ![512, 1] v h (ix2 a 0)]
  refine congrArg v (funext fun d => ?_)
  match d with
  | ⟨0, _⟩ => rfl
  | ⟨1, _⟩ => rfl
  | ⟨2, _⟩ => rfl

/-- A row slab [1, 1, 512] with its unit axis dropped. -/
theorem slabRow_to_row (v : SlabRow.Idx → α) (h : SlabRow.ShapeCasts Row) (c : Fin 512) :
    shapeCast Row v h (ix2 0 c) = v (ix3 0 0 c) := by
  rw [shapeCast_dropUnit_apply (n := 2) ![1, 512] v h (ix2 0 c)]
  refine congrArg v (funext fun d => ?_)
  match d with
  | ⟨0, _⟩ => rfl
  | ⟨1, _⟩ => rfl
  | ⟨2, _⟩ => rfl

/-- A line as a row [1, 512]. -/
theorem line_to_row (v : Line.Idx → α) (h : Line.ShapeCasts Row) (c : Fin 512) :
    shapeCast Row v h (ix2 0 c) = v (ix1 c) := by
  rw [shapeCast_addUnit_apply (n := 1) ![512] v h (ix2 0 c)]
  refine congrArg v (funext fun d => ?_)
  match d with
  | ⟨0, _⟩ => rfl

/-- A line as a column [512, 1] (keepdims of a reduction over the last axis). -/
theorem line_to_col (v : Line.Idx → α) (h : Line.ShapeCasts Col) (a : Fin 512) :
    shapeCast Col v h (ix2 a 0) = v (ix1 a) := by
  refine shapeCast_apply v h (ix2 a 0) (ix1 a) ?_
  rw [Shape.rowMajor_val_one, Shape.rowMajor_val_two]
  show a.val = a.val * 1 + 0
  omega

/-- A row broadcast down the square's rows: entry (a, c) is the row's (0, c). -/
theorem row_bcast (v : Row.Idx → α) (h : Row.Broadcasts Sq) (a c : Fin 512) :
    broadcastTo Sq v h (ix2 a c) = v (ix2 0 c) := by
  refine broadcastTo_apply v h (ix2 a c) (ix2 0 c) fun d => ?_
  match d with
  | ⟨0, _⟩ => rfl
  | ⟨1, _⟩ => rfl

/-- A column broadcast along the square's columns: entry (a, c) is the column's (a, 0). -/
theorem col_bcast (v : Col.Idx → α) (h : Col.Broadcasts Sq) (a c : Fin 512) :
    broadcastTo Sq v h (ix2 a c) = v (ix2 a 0) := by
  refine broadcastTo_apply v h (ix2 a c) (ix2 a 0) fun d => ?_
  match d with
  | ⟨0, _⟩ => rfl
  | ⟨1, _⟩ => rfl

/-- The transposed square: entry (a, c) is the operand's (c, a). -/
theorem sq_transpose (v : Sq.Idx → α) (h : Sq.Transposes [1, 0] Sq) (a c : Fin 512) :
    transpose Sq [1, 0] v h (ix2 a c) = v (ix2 c a) := by
  refine transpose_apply [1, 0] v h (ix2 a c) (ix2 c a) fun b => ?_
  match b with
  | ⟨0, _⟩ => rfl
  | ⟨1, _⟩ => rfl

/-- Reducing the square over its columns: the index over row `a` with column `k` put back is (a, k). -/
theorem lift_cols (h : Sq.Reduces [1] Line) (a : Fin 512) (k : Fin (Sq.size 1)) :
    h.lift (ix1 a) k = ix2 a (⟨k.val, k.isLt⟩ : Fin 512) := by
  funext d; apply Fin.ext
  match d with
  | ⟨0, _⟩ => rfl
  | ⟨1, _⟩ => rfl

/-- Reducing the square over its rows: the index over column `c` with row `k` put back is (k, c). -/
theorem lift_rows (h : Sq.Reduces [0] Line) (c : Fin 512) (k : Fin (Sq.size 0)) :
    h.lift (ix1 c) k = ix2 (⟨k.val, k.isLt⟩ : Fin 512) c := by
  funext d; apply Fin.ext
  match d with
  | ⟨0, _⟩ => rfl
  | ⟨1, _⟩ => rfl

end Cert.CoAttention.Layout
-- ==== Proof.Body.lean ====
/-
  The kernel body's values read at an index. One grid step handles two batch elements; for each, the body forms
  the similarity matrix once (`sim a c = ∑ d, A a d * B c d`: a contraction of the first sentence with the
  transposed second), adds the column bias of the second sentence's mask and takes a softmax along each ROW
  (maximum, exponential, sum, then the contraction with `B` scaled by the reciprocal of the row's mass), and adds
  the row bias of the first sentence's mask and takes a softmax along each COLUMN (maximum, exponential, sum, the
  weights scaled by the reciprocal of the column's mass, then the contraction over rows with `A`).
  Read at coordinates these are `attendPost` and `attendPre` of the specification: a change of float format is the
  identity on extended reals, a reduction over one axis is a fold or a sum over that axis's coordinate, and a
  contraction into a zero accumulator is the sum of products.
-/
import proofs.«401247_j30502857736672_3_alg».proof.Proof.Spec
import proofs.«401247_j30502857736672_3_alg».proof.Proof.Layout
import proofs.«401247_j30502857736672_3_alg».proof.Proof.Gen.KernelIdeal.Skeleton
import Idealize.ShloMosaic.PureOps.Ideal.Laws

noncomputable section

namespace Cert.CoAttention.Body

open Idealize.ShloMosaic Idealize.ShloMosaic.ValueIdx Cert.KernelIdeal Cert.KernelIdeal.Gen Cert.CoAttention.Layout

/-! ## Reductions of a square over one axis, at coordinates -/

/-- The pattern of `-∞` is the bottom of the extended reals. -/
theorem ofBits_negInf : Ideal.ofBits .f32 0xFF800000#32 = ⊥ := by simp [Ideal.ofBits, Ideal.ieee]

/-- The maximum along row `a`: the fold of `max` from `-∞` over the row's entries. -/
theorem rowmax_apply (s : FVec Ideal S512x512 .f32) (h : S512x512.Reduces [1] S512) (hφ : FKind.Formats .f32)
    (hacc : (0xFF800000#32 : BitVec 32) = 0xFF800000#32) (a : Fin 512) :
    multiReduction .maximumf [1] S512 s 0xFF800000#32 h hφ hacc (ix1 a) = rowMax (fun c : Fin 512 => s (ix2 a c)) := by
  refine (Ideal.multiReduction_maximumf_single s 0xFF800000#32 h hφ hacc (ix1 a)).trans ?_
  show Finset.fold max (Ideal.ofBits .f32 0xFF800000#32) _ _ = _
  rw [ofBits_negInf]
  have hf : (s ∘ h.lift (ix1 a)) = fun k : Fin 512 => s (ix2 a k) := funext fun k => congrArg s (lift_cols h a k)
  exact congrArg (fun f => Finset.fold max ⊥ f (Finset.univ : Finset (Fin 512))) hf

/-- The maximum along column `c`. -/
theorem colmax_apply (s : FVec Ideal S512x512 .f32) (h : S512x512.Reduces [0] S512) (hφ : FKind.Formats .f32)
    (hacc : (0xFF800000#32 : BitVec 32) = 0xFF800000#32) (c : Fin 512) :
    multiReduction .maximumf [0] S512 s 0xFF800000#32 h hφ hacc (ix1 c) = rowMax (fun a : Fin 512 => s (ix2 a c)) := by
  refine (Ideal.multiReduction_maximumf_single s 0xFF800000#32 h hφ hacc (ix1 c)).trans ?_
  show Finset.fold max (Ideal.ofBits .f32 0xFF800000#32) _ _ = _
  rw [ofBits_negInf]
  have hf : (s ∘ h.lift (ix1 c)) = fun k : Fin 512 => s (ix2 k c) := funext fun k => congrArg s (lift_rows h c k)
  exact congrArg (fun f => Finset.fold max ⊥ f (Finset.univ : Finset (Fin 512))) hf

/-- The sum along row `a`. -/
theorem rowsum_apply (p : FVec Ideal S512x512 .f32) (h : S512x512.Reduces [1] S512) (hφ : FKind.Formats .f32)
    (hacc : (0x00000000#32 : BitVec 32) = 0x00000000#32) (a : Fin 512) :
    multiReduction .add [1] S512 p 0x00000000#32 h hφ hacc (ix1 a) = ∑ c : Fin 512, p (ix2 a c) := by
  refine (Ideal.multiReduction_add_single p 0x00000000#32 h hφ hacc (ix1 a)).trans ?_
  exact Finset.sum_congr rfl fun k _ => congrArg p (lift_cols h a k)

/-- The sum along column `c`. -/
theorem colsum_apply (p : FVec Ideal S512x512 .f32) (h : S512x512.Reduces [0] S512) (hφ : FKind.Formats .f32)
    (hacc : (0x00000000#32 : BitVec 32) = 0x00000000#32) (c : Fin 512) :
    multiReduction .add [0] S512 p 0x00000000#32 h hφ hacc (ix1 c) = ∑ a : Fin 512, p (ix2 a c) := by
  refine (Ideal.multiReduction_add_single p 0x00000000#32 h hφ hacc (ix1 c)).trans ?_
  exact Finset.sum_congr rfl fun k _ => congrArg p (lift_rows h c k)

/-! ## The two contractions, at coordinates -/

theorem lhs_rc_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_rc_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_rc_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_rc_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- Rows of the left operand against columns of the right: entry (a, d) is `∑ k, L a k * R k d`. -/
theorem matmul_rc_apply {φ₁ φ₂ : FTy} (L : FVec Ideal S512x512 φ₁) (R : FVec Ideal S512x512 φ₂) (a d : Fin 512) :
    matmul dot_S512x512_S512x512_S512x512_1_0_0_1_n_n none L R (constant (F := Ideal) S512x512 .f32 0x00000000#32) (ix2 a d)
      = ∑ k : Fin 512, L (ix2 a k) * R (ix2 k d) := by
  refine (Ideal.matmul_constant_zero_apply dot_S512x512_S512x512_S512x512_1_0_0_1_n_n none L R (ix2 a d)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 a d) ((contrEquiv1 dot_S512x512_S512x512_S512x512_1_0_0_1_n_n 512 rfl rfl).symm k) = ix2 a k := funext fun x => Fin.ext (by
    match x with
    | ⟨0, _⟩ => exact lhs_rc_0 _ _
    | ⟨1, _⟩ => exact (lhs_rc_1 _ _).trans hk)
  have er : dot_S512x512_S512x512_S512x512_1_0_0_1_n_n.rhsIdx (ix2 a d) ((contrEquiv1 dot_S512x512_S512x512_S512x512_1_0_0_1_n_n 512 rfl rfl).symm k) = ix2 k d := funext fun x => Fin.ext (by
    match x with
    | ⟨0, _⟩ => exact (rhs_rc_0 _ _).trans hk
    | ⟨1, _⟩ => exact rhs_rc_1 _ _)
  rw [el, er]

theorem lhs_cc_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem lhs_cc_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem rhs_cc_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem rhs_cc_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- Columns of the left operand against columns of the right: entry (r, d) is `∑ k, L k r * R k d`. -/
theorem matmul_cc_apply {φ₁ φ₂ : FTy} (L : FVec Ideal S512x512 φ₁) (R : FVec Ideal S512x512 φ₂) (r d : Fin 512) :
    matmul dot_S512x512_S512x512_S512x512_0_0_1_1_n_n none L R (constant (F := Ideal) S512x512 .f32 0x00000000#32) (ix2 r d)
      = ∑ k : Fin 512, L (ix2 k r) * R (ix2 k d) := by
  refine (Ideal.matmul_constant_zero_apply dot_S512x512_S512x512_S512x512_0_0_1_1_n_n none L R (ix2 r d)).trans ?_
  rw [← Equiv.sum_comp (contrEquiv1 dot_S512x512_S512x512_S512x512_0_0_1_1_n_n 512 rfl rfl).symm]
  refine Finset.sum_congr rfl fun k _ => ?_
  have hk := contrEquiv1_symm_val dot_S512x512_S512x512_S512x512_0_0_1_1_n_n 512 rfl rfl k
  have el : dot_S512x512_S512x512_S512x512_0_0_1_1_n_n.lhsIdx (ix2 r d) ((contrEquiv1 dot_S512x512_S512x512_S512x512_0_0_1_1_n_n 512 rfl rfl).symm k) = ix2 k r := funext fun x => Fin.ext (by
    match x with
    | ⟨0, _⟩ => exact (lhs_cc_0 _ _).trans hk
    | ⟨1, _⟩ => exact lhs_cc_1 _ _)
  have er : dot_S512x512_S512x512_S512x512_0_0_1_1_n_n.rhsIdx (ix2 r d) ((contrEquiv1 dot_S512x512_S512x512_S512x512_0_0_1_1_n_n 512 rfl rfl).symm k) = ix2 k d := funext fun x => Fin.ext (by
    match x with
    | ⟨0, _⟩ => exact (rhs_cc_0 _ _).trans hk
    | ⟨1, _⟩ => exact rhs_cc_1 _ _)
  rw [el, er]

/-- The exponential of a vector, at an index. -/
theorem exp_apply {s : Shape} (v : FVec Ideal s .f32) (i : s.Idx) : exp v i = Ideal.exp (v i) := rfl

/-! ## The payloads -/

/-- A literal scalar at the ideal instance is the extended real its pattern denotes. -/
theorem scalar_ofBits (b : BitVec 32) : Scalar.ofBits (F := Ideal) .f32 b = Ideal.ofBits .f32 b := rfl

/-- A sentence slab narrowed for the matrix unit and re-laid as a square: the narrowing is the identity. -/
theorem narrow0a_apply (v : Vec Ideal S1x512x512 .f32) (a e : Fin 512) : k0_pay1 (F := Ideal) v (ix2 a e) = v (ix3 0 a e) := by
  unfold k0_pay1; exact slab_to_sq v _ a e
theorem narrow0b_apply (v : Vec Ideal S1x512x512 .f32) (a e : Fin 512) : k0_pay2 (F := Ideal) v (ix2 a e) = v (ix3 0 a e) := by
  unfold k0_pay2; exact slab_to_sq v _ a e
theorem narrow1a_apply (v : Vec Ideal S1x512x512 .f32) (a e : Fin 512) : k0_pay8 (F := Ideal) v (ix2 a e) = v (ix3 0 a e) := by
  unfold k0_pay8; exact slab_to_sq v _ a e
theorem narrow1b_apply (v : Vec Ideal S1x512x512 .f32) (a e : Fin 512) : k0_pay9 (F := Ideal) v (ix2 a e) = v (ix3 0 a e) := by
  unfold k0_pay9; exact slab_to_sq v _ a e

/-- The similarity of the block's first batch element: rows of `A` against rows of `B`. -/
theorem sim0_apply (va vb : Vec Ideal S1x512x512 .f32) (a c : Fin 512) :
    k0_pay3 (F := Ideal) va vb (ix2 a c) = ∑ e : Fin 512, va (ix3 0 a e) * vb (ix3 0 c e) := by
  unfold k0_pay3
  refine (matmul_rc_apply _ _ a c).trans (Finset.sum_congr rfl fun e _ => ?_)
  rw [sq_transpose, narrow0a_apply, narrow0b_apply]

/-- The similarity of the block's second batch element. -/
theorem sim1_apply (va vb : Vec Ideal S1x512x512 .f32) (a c : Fin 512) :
    k0_pay10 (F := Ideal) va vb (ix2 a c) = ∑ e : Fin 512, va (ix3 0 a e) * vb (ix3 0 c e) := by
  unfold k0_pay10
  refine (matmul_rc_apply _ _ a c).trans (Finset.sum_congr rfl fun e _ => ?_)
  rw [sq_transpose, narrow1a_apply, narrow1b_apply]

set_option backward.isDefEq.respectTransparency.types false in
/-- First batch element, first direction: token `a` of the first sentence attending over the second sentence. -/
theorem attended_a0 (va vb : Vec Ideal S1x512x512 .f32) (mb : Vec Ideal S1x1x512 .f32) (a d : Fin 512) :
    k0_pay4 (F := Ideal) va vb mb (ix2 a d)
      = attendPost (fun c : Fin 512 => (∑ e : Fin 512, va (ix3 0 a e) * vb (ix3 0 c e)) + (one - mb (ix3 0 0 c)) * negBig) (fun c : Fin 512 => vb (ix3 0 c d)) := by
  unfold k0_pay4
  simp only [mulf_apply, matmul_rc_apply, truncf_apply, exp_apply, subf_apply, addf_apply, col_bcast, row_bcast, line_to_col, rowmax_apply, rowsum_apply, divf_apply, broadcast_apply, slabRow_to_row, scalar_ofBits, sim0_apply, narrow0b_apply]
  rw [rowsum_apply]
  simp only [mulf_apply, matmul_rc_apply, truncf_apply, exp_apply, subf_apply, addf_apply, col_bcast, row_bcast, line_to_col, rowmax_apply, rowsum_apply, divf_apply, broadcast_apply, slabRow_to_row, scalar_ofBits, sim0_apply, narrow0b_apply]
  rw [rowmax_apply]
  simp only [mulf_apply, matmul_rc_apply, truncf_apply, exp_apply, subf_apply, addf_apply, col_bcast, row_bcast, line_to_col, rowmax_apply, rowsum_apply, divf_apply, broadcast_apply, slabRow_to_row, scalar_ofBits, sim0_apply, narrow0b_apply]
  rfl

/-- First batch element, the biased scores of the second direction. -/
theorem scoreb0_apply (va vb : Vec Ideal S1x512x512 .f32) (ma : Vec Ideal S1x512x1 .f32) (a c : Fin 512) :
    k0_pay5 (F := Ideal) va vb ma (ix2 a c)
      = (∑ e : Fin 512, va (ix3 0 a e) * vb (ix3 0 c e)) + (one - ma (ix3 0 a 0)) * negBig := by
  unfold k0_pay5
  simp only [mulf_apply, subf_apply, addf_apply, col_bcast, broadcast_apply, slabCol_to_col, scalar_ofBits, sim0_apply]
  rfl

set_option backward.isDefEq.respectTransparency.types false in
/-- First batch element, second direction: token `r` of the second sentence attending over the first sentence. -/
theorem attended_b0 (va vb : Vec Ideal S1x512x512 .f32) (ma : Vec Ideal S1x512x1 .f32) (z : Fin 1) (r d : Fin 512) :
    k0_pay7 (F := Ideal) (k0_pay1 va) (k0_pay5 va vb ma) (ix3 z r d)
      = attendPre (fun a : Fin 512 => (∑ e : Fin 512, va (ix3 0 a e) * vb (ix3 0 r e)) + (one - ma (ix3 0 a 0)) * negBig) (fun a : Fin 512 => va (ix3 0 a d)) := by
  unfold k0_pay7
  simp only [sq_to_slab_ix, mulf_apply, matmul_cc_apply, truncf_apply, exp_apply, subf_apply, addf_apply, col_bcast, row_bcast, line_to_row, colmax_apply, colsum_apply, divf_apply, broadcast_apply, slabCol_to_col, scalar_ofBits, scoreb0_apply, narrow0a_apply]
  rw [colsum_apply]
  simp only [mulf_apply, matmul_cc_apply, truncf_apply, exp_apply, subf_apply, addf_apply, col_bcast, row_bcast, line_to_row, colmax_apply, colsum_apply, divf_apply, broadcast_apply, slabCol_to_col, scalar_ofBits, scoreb0_apply, narrow0a_apply]
  rw [colmax_apply]
  simp only [mulf_apply, matmul_cc_apply, truncf_apply, exp_apply, subf_apply, addf_apply, col_bcast, row_bcast, line_to_row, colmax_apply, colsum_apply, divf_apply, broadcast_apply, slabCol_to_col, scalar_ofBits, scoreb0_apply, narrow0a_apply]
  rfl

/-- The first direction's result re-laid as a slab. -/
theorem attended_a0_slab (va vb : Vec Ideal S1x512x512 .f32) (mb : Vec Ideal S1x1x512 .f32) (z : Fin 1) (a d : Fin 512) :
    k0_pay6 (F := Ideal) (k0_pay4 va vb mb) (ix3 z a d)
      = attendPost (fun c : Fin 512 => (∑ e : Fin 512, va (ix3 0 a e) * vb (ix3 0 c e)) + (one - mb (ix3 0 0 c)) * negBig) (fun c : Fin 512 => vb (ix3 0 c d)) := by
  unfold k0_pay6
  rw [sq_to_slab_ix]
  exact attended_a0 va vb mb a d

set_option backward.isDefEq.respectTransparency.types false in
/-- Second batch element, first direction. -/
theorem attended_a1 (va vb : Vec Ideal S1x512x512 .f32) (mb : Vec Ideal S1x1x512 .f32) (z : Fin 1) (a d : Fin 512) :
    k0_pay13 (F := Ideal) (k0_pay9 vb) (k0_pay10 va vb) (k0_pay11 mb) (ix3 z a d)
      = attendPost (fun c : Fin 512 => (∑ e : Fin 512, va (ix3 0 a e) * vb (ix3 0 c e)) + (one - mb (ix3 0 0 c)) * negBig) (fun c : Fin 512 => vb (ix3 0 c d)) := by
  unfold k0_pay13 k0_pay11
  simp only [sq_to_slab_ix, mulf_apply, matmul_rc_apply, truncf_apply, exp_apply, subf_apply, addf_apply, col_bcast, row_bcast, line_to_col, rowmax_apply, rowsum_apply, divf_apply, broadcast_apply, slabRow_to_row, scalar_ofBits, sim1_apply, narrow1b_apply]
  rw [rowsum_apply]
  simp only [mulf_apply, matmul_rc_apply, truncf_apply, exp_apply, subf_apply, addf_apply, col_bcast, row_bcast, line_to_col, rowmax_apply, rowsum_apply, divf_apply, broadcast_apply, slabRow_to_row, scalar_ofBits, sim1_apply, narrow1b_apply]
  rw [rowmax_apply]
  simp only [mulf_apply, matmul_rc_apply, truncf_apply, exp_apply, subf_apply, addf_apply, col_bcast, row_bcast, line_to_col, rowmax_apply, rowsum_apply, divf_apply, broadcast_apply, slabRow_to_row, scalar_ofBits, sim1_apply, narrow1b_apply]
  rfl

set_option backward.isDefEq.respectTransparency.types false in
/-- Second batch element, second direction. -/
theorem attended_b1 (va vb : Vec Ideal S1x512x512 .f32) (ma : Vec Ideal S1x512x1 .f32) (z : Fin 1) (r d : Fin 512) :
    k0_pay14 (F := Ideal) (k0_pay8 va) (k0_pay10 va vb) (k0_pay12 ma) (Scalar.ofBits .f32 0xC61C4000#32) (ix3 z r d)
      = attendPre (fun a : Fin 512 => (∑ e : Fin 512, va (ix3 0 a e) * vb (ix3 0 r e)) + (one - ma (ix3 0 a 0)) * negBig) (fun a : Fin 512 => va (ix3 0 a d)) := by
  unfold k0_pay14 k0_pay12
  simp only [sq_to_slab_ix, mulf_apply, matmul_cc_apply, truncf_apply, exp_apply, subf_apply, addf_apply, col_bcast, row_bcast, line_to_row, colmax_apply, colsum_apply, divf_apply, broadcast_apply, slabCol_to_col, scalar_ofBits, sim1_apply, narrow1a_apply]
  rw [colsum_apply]
  simp only [mulf_apply, matmul_cc_apply, truncf_apply, exp_apply, subf_apply, addf_apply, col_bcast, row_bcast, line_to_row, colmax_apply, colsum_apply, divf_apply, broadcast_apply, slabCol_to_col, scalar_ofBits, sim1_apply, narrow1a_apply]
  rw [colmax_apply]
  simp only [mulf_apply, matmul_cc_apply, truncf_apply, exp_apply, subf_apply, addf_apply, col_bcast, row_bcast, line_to_row, colmax_apply, colsum_apply, divf_apply, broadcast_apply, slabCol_to_col, scalar_ofBits, sim1_apply, narrow1a_apply]
  rfl

end Cert.CoAttention.Body

end
-- ==== Proof.Blocks.lean ====
/-
  From one grid step's blocks to the whole arrays. A grid step `t` of 32 stages batch elements `2 t` and `2 t + 1`
  of each array; the body writes slab `j` of each output block from slab `j` of the input blocks, so each output
  block is ONE function of the input blocks (`blockA`, `blockB`), every stored piece is that function at the indices
  under its rectangle, and, read through the windows, the block is the restriction of the whole-array functions
  `KA` and `KB` of the argument arrays (the masks reach the kernel re-laid as [64, 512, 1] and [64, 1, 512], which
  keeps the row-major position). The 32 blocks tile the 64 batch elements, so the arrays end at `KA` and `KB`.
-/
import proofs.«401247_j30502857736672_3_alg».proof.Proof.Spec
import proofs.«401247_j30502857736672_3_alg».proof.Proof.Layout
import proofs.«401247_j30502857736672_3_alg».proof.Proof.Body
import proofs.«401247_j30502857736672_3_alg».proof.Proof.Gen.KernelIdeal.Value
import Idealize.ShloMosaic.Lib.StableHlo.Run

noncomputable section

namespace Cert.CoAttention.Blocks

open Idealize.ShloMosaic Idealize.ShloMosaic.ValueIdx Idealize.ShloMosaic.TcCoe Idealize.SL.Sem
open Cert.KernelIdeal Cert.KernelIdeal.Gen Cert.CoAttention.Layout Cert.CoAttention.Body
open Idealize.ShloMosaic.Pipeline (Dat)

/-! ## The body's rectangles: slab `j` of a two-slab block -/

/-- Slab 0 of a sentence block: index (z, a, e) under its rectangle is (0, a, e) of the block. -/
theorem idx_sent0 (z : Fin 1) (a e : Fin 512) : r0_0.idx (ix3 z a e) = (ix3 0 a e : S2x512x512.Idx) := by
  funext k; apply Fin.ext
  have := z.isLt
  match k with
  | ⟨0, _⟩ => show 0 + 1 * z.val = 0; omega
  | ⟨1, _⟩ => show 0 + 1 * a.val = a.val; omega
  | ⟨2, _⟩ => show 0 + 1 * e.val = e.val; omega
/-- Slab 1 of a sentence block. -/
theorem idx_sent1 (z : Fin 1) (a e : Fin 512) : r0_3.idx (ix3 z a e) = (ix3 1 a e : S2x512x512.Idx) := by
  funext k; apply Fin.ext
  have := z.isLt
  match k with
  | ⟨0, _⟩ => show 1 + 1 * z.val = 1; omega
  | ⟨1, _⟩ => show 0 + 1 * a.val = a.val; omega
  | ⟨2, _⟩ => show 0 + 1 * e.val = e.val; omega
/-- Slab 0 of a mask's column block. -/
theorem idx_col0 (z : Fin 1) (a : Fin 512) (u : Fin 1) : r0_1.idx (ix3 z a u) = (ix3 0 a 0 : S2x512x1.Idx) := by
  funext k; apply Fin.ext
  have := z.isLt; have := u.isLt
  match k with
  | ⟨0, _⟩ => show 0 + 1 * z.val = 0; omega
  | ⟨1, _⟩ => show 0 + 1 * a.val = a.val; omega
  | ⟨2, _⟩ => show 0 + 1 * u.val = 0; omega
/-- Slab 1 of a mask's column block. -/
theorem idx_col1 (z : Fin 1) (a : Fin 512) (u : Fin 1) : r0_4.idx (ix3 z a u) = (ix3 1 a 0 : S2x512x1.Idx) := by
  funext k; apply Fin.ext
  have := z.isLt; have := u.isLt
  match k with
  | ⟨0, _⟩ => show 1 + 1 * z.val = 1; omega
  | ⟨1, _⟩ => show 0 + 1 * a.val = a.val; omega
  | ⟨2, _⟩ => show 0 + 1 * u.val = 0; omega
/-- Slab 0 of a mask's row block. -/
theorem idx_row0 (z u : Fin 1) (c : Fin 512) : r0_2.idx (ix3 z u c) = (ix3 0 0 c : S2x1x512.Idx) := by
  funext k; apply Fin.ext
  have := z.isLt; have := u.isLt
  match k with
  | ⟨0, _⟩ => show 0 + 1 * z.val = 0; omega
  | ⟨1, _⟩ => show 0 + 1 * u.val = 0; omega
  | ⟨2, _⟩ => show 0 + 1 * c.val = c.val; omega
/-- Slab 1 of a mask's row block. -/
theorem idx_row1 (z u : Fin 1) (c : Fin 512) : r0_5.idx (ix3 z u c) = (ix3 1 0 c : S2x1x512.Idx) := by
  funext k; apply Fin.ext
  have := z.isLt; have := u.isLt
  match k with
  | ⟨0, _⟩ => show 1 + 1 * z.val = 1; omega
  | ⟨1, _⟩ => show 0 + 1 * u.val = 0; omega
  | ⟨2, _⟩ => show 0 + 1 * c.val = c.val; omega

/-- Where slab 0's rectangle puts its index (z, a, d) in the block: (0, a, d). -/
theorem emb_slab0 (z : Fin 1) (a d : Fin 512) : r0_0.emb (ix3 z a d) = (ix3 0 a d : S2x512x512.Idx) := by
  funext k; apply Fin.ext
  have := z.isLt
  match k with
  | ⟨0, _⟩ => show 0 + 1 * z.val = 0; omega
  | ⟨1, _⟩ => show 0 + 1 * a.val = a.val; omega
  | ⟨2, _⟩ => show 0 + 1 * d.val = d.val; omega
/-- Slab 1's: (1, a, d). -/
theorem emb_slab1 (z : Fin 1) (a d : Fin 512) : r0_3.emb (ix3 z a d) = (ix3 1 a d : S2x512x512.Idx) := by
  funext k; apply Fin.ext
  have := z.isLt
  match k with
  | ⟨0, _⟩ => show 1 + 1 * z.val = 1; omega
  | ⟨1, _⟩ => show 0 + 1 * a.val = a.val; omega
  | ⟨2, _⟩ => show 0 + 1 * d.val = d.val; omega

/-! ## Each output block as one function of the input blocks -/

/-- Slab `j`, token `a`, feature `d` of the first output block: token `a` of slab `j` of the first sentence's block
    attending over slab `j` of the second sentence's block under slab `j` of its mask row. -/
def blockA (x0 x1 : Vec Ideal S2x512x512 .f32) (x3 : Vec Ideal S2x1x512 .f32) (j : Fin 2) (a d : Fin 512) : EReal :=
  attendPost (fun c : Fin 512 => (∑ e : Fin 512, x0 (ix3 j a e) * x1 (ix3 j c e)) + (one - x3 (ix3 j 0 c)) * negBig)
    (fun c : Fin 512 => x1 (ix3 j c d))

/-- Slab `j`, token `r`, feature `d` of the second output block: token `r` of the second sentence attending over
    the first sentence under its mask column. -/
def blockB (x0 x1 : Vec Ideal S2x512x512 .f32) (x2 : Vec Ideal S2x512x1 .f32) (j : Fin 2) (r d : Fin 512) : EReal :=
  attendPre (fun a : Fin 512 => (∑ e : Fin 512, x0 (ix3 j a e) * x1 (ix3 j r e)) + (one - x2 (ix3 j a 0)) * negBig)
    (fun a : Fin 512 => x0 (ix3 j a d))

/-- What the body leaves in the first output's staging buffer: both stored slabs are `blockA` under their rectangles. -/
theorem out_a_apply (x0 x1 : Vec Ideal S2x512x512 .f32) (x2 : Vec Ideal S2x512x1 .f32) (x3 : Vec Ideal S2x1x512 .f32)
    (y : S2x512x512.Idx) : out0_4 (F := Ideal) x0 x1 x2 x3 y = blockA x0 x1 x3 (y 0) (y 1) (y 2) := by
  unfold out0_4
  refine View.canon_apply_of_pieces (Val := Elt Ideal) (fun y : S2x512x512.Idx => blockA x0 x1 x3 (y 0) (y 1) (y 2)) _ ?_ y (cover0_4 _ _ y)
  intro p hp x
  rcases List.mem_cons.mp hp with rfl | hp
  · obtain ⟨z, a, d, rfl⟩ : ∃ (z : Fin 1) (a d : Fin 512), x = ix3 z a d := ⟨x 0, x 1, x 2, eq_ix3 x⟩
    rw [emb_slab1]
    refine (attended_a1 _ _ _ z a d).trans ?_
    simp only [View.ld, idx_sent1, idx_row1]
    rfl
  · rcases List.mem_cons.mp hp with rfl | hp
    · obtain ⟨z, a, d, rfl⟩ : ∃ (z : Fin 1) (a d : Fin 512), x = ix3 z a d := ⟨x 0, x 1, x 2, eq_ix3 x⟩
      rw [emb_slab0]
      refine (attended_a0_slab _ _ _ z a d).trans ?_
      simp only [View.ld, idx_sent0, idx_row0]
      rfl
    · simp at hp

/-- The second output's staging buffer likewise is `blockB`. -/
theorem out_b_apply (x0 x1 : Vec Ideal S2x512x512 .f32) (x2 : Vec Ideal S2x512x1 .f32) (x3 : Vec Ideal S2x1x512 .f32)
    (y : S2x512x512.Idx) : out0_5 (F := Ideal) x0 x1 x2 x3 y = blockB x0 x1 x2 (y 0) (y 1) (y 2) := by
  unfold out0_5
  refine View.canon_apply_of_pieces (Val := Elt Ideal) (fun y : S2x512x512.Idx => blockB x0 x1 x2 (y 0) (y 1) (y 2)) _ ?_ y (cover0_5 _ _ y)
  intro p hp x
  rcases List.mem_cons.mp hp with rfl | hp
  · obtain ⟨z, r, d, rfl⟩ : ∃ (z : Fin 1) (r d : Fin 512), x = ix3 z r d := ⟨x 0, x 1, x 2, eq_ix3 x⟩
    rw [emb_slab1]
    refine (attended_b1 _ _ _ z r d).trans ?_
    simp only [View.ld, idx_sent1, idx_col1]
    rfl
  · rcases List.mem_cons.mp hp with rfl | hp
    · obtain ⟨z, r, d, rfl⟩ : ∃ (z : Fin 1) (r d : Fin 512), x = ix3 z r d := ⟨x 0, x 1, x 2, eq_ix3 x⟩
      rw [emb_slab0]
      refine (attended_b0 _ _ _ z r d).trans ?_
      simp only [View.ld, idx_sent0, idx_col0]
      rfl
    · simp at hp

/-! ## The blocks are restrictions of the whole-array functions -/

/-- The batch element that slab `j` of grid step `t`'s blocks holds: `2 t + j`. -/
def batchOf (t : Fin cfg0.N) (j : Fin 2) : Fin 64 :=
  ⟨2 * t.val + j.val, by have := t.isLt; have hN : cfg0.N = 32 := N_0; have := j.isLt; omega⟩

/-- Blocks that hold batch elements `2 t`, `2 t + 1` of the arrays: the first block function is `KA` there. -/
theorem blockA_eq (x0 x1 : Vec Ideal S2x512x512 .f32) (x3 : Vec Ideal S2x1x512 .f32) (xa xb : Sent) (mb : Mask) (t : Fin cfg0.N)
    (h0 : ∀ (j : Fin 2) (a e : Fin 512), x0 (ix3 j a e) = xa (ix3 (batchOf t j) a e))
    (h1 : ∀ (j : Fin 2) (a e : Fin 512), x1 (ix3 j a e) = xb (ix3 (batchOf t j) a e))
    (h3 : ∀ (j : Fin 2) (c : Fin 512), x3 (ix3 j 0 c) = mb (ix2 (batchOf t j) c))
    (j : Fin 2) (a d : Fin 512) : blockA x0 x1 x3 j a d = KA xa xb mb (ix3 (batchOf t j) a d) := by
  unfold blockA KA scoreA sim bias
  simp only [h0, h1, h3]

/-- And the second is `KB`. -/
theorem blockB_eq (x0 x1 : Vec Ideal S2x512x512 .f32) (x2 : Vec Ideal S2x512x1 .f32) (xa xb : Sent) (ma : Mask) (t : Fin cfg0.N)
    (h0 : ∀ (j : Fin 2) (a e : Fin 512), x0 (ix3 j a e) = xa (ix3 (batchOf t j) a e))
    (h1 : ∀ (j : Fin 2) (a e : Fin 512), x1 (ix3 j a e) = xb (ix3 (batchOf t j) a e))
    (h2 : ∀ (j : Fin 2) (a : Fin 512), x2 (ix3 j a 0) = ma (ix2 (batchOf t j) a))
    (j : Fin 2) (r d : Fin 512) : blockB x0 x1 x2 j r d = KB xa xb ma (ix3 (batchOf t j) r d) := by
  unfold blockB KB scoreB sim bias
  simp only [h0, h1, h2]

/-! ## The windows -/

variable (m : (ℓ : Loc nD τ sig) → Buf (Elt Ideal) ℓ) (ρ : Dev nD → PrngReg)

/-- Every window's index map, decided over the 32 grid steps: block `t` on the batch axis, block 0 on the others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- The first sentence's block at step `t`: batch elements `2 t`, `2 t + 1` of the argument. -/
theorem iblk_sent_a (c : Dev nD) (t : Fin cfg0.N) (j : Fin 2) (a e : Fin 512) :
    iblk m c 0 t (ix3 j a e) = (m ((c : Thread nD τ).loc main_arg0) : Sent) (ix3 (batchOf t j) a e) := by
  show V m c main_arg0 (((cfg0.win 0).blk t).view.emb (ix3 j a e)) = _
  rw [V_main_arg0]
  obtain ⟨⟨e0, e1, e2⟩, -⟩ := idx_facts t
  refine congrArg _ (funext fun k => Fin.ext ?_)
  match k with
  | ⟨0, _⟩ => show win0_0.index t (0 : Fin 3) * 2 + 1 * j.val = 2 * t.val + j.val; omega
  | ⟨1, _⟩ => show win0_0.index t (1 : Fin 3) * 512 + 1 * a.val = a.val; omega
  | ⟨2, _⟩ => show win0_0.index t (2 : Fin 3) * 512 + 1 * e.val = e.val; omega

/-- The second sentence's block likewise. -/
theorem iblk_sent_b (c : Dev nD) (t : Fin cfg0.N) (j : Fin 2) (a e : Fin 512) :
    iblk m c 1 t (ix3 j a e) = (m ((c : Thread nD τ).loc main_arg2) : Sent) (ix3 (batchOf t j) a e) := by
  show V m c main_arg2 (((cfg0.win 1).blk t).view.emb (ix3 j a e)) = _
  rw [V_main_arg2]
  obtain ⟨-, ⟨e0, e1, e2⟩, -⟩ := idx_facts t
  refine congrArg _ (funext fun k => Fin.ext ?_)
  match k with
  | ⟨0, _⟩ => show win0_1.index t (0 : Fin 3) * 2 + 1 * j.val = 2 * t.val + j.val; omega
  | ⟨1, _⟩ => show win0_1.index t (1 : Fin 3) * 512 + 1 * a.val = a.val; omega
  | ⟨2, _⟩ => show win0_1.index t (2 : Fin 3) * 512 + 1 * e.val = e.val; omega

/-- The first mask as the region finds it: the argument re-laid as [64, 512, 1]. -/
theorem V_mask_a (c : Dev nD) :
    (V m c main_v0 : S64x512x1.Idx → EReal) = shapeCast S64x512x1 (m ((c : Thread nD τ).loc main_arg1)) shapeCasts_S64x512_S64x512x1 := by
  dsimp only [Gen.V, Gen.hostOps0]; after_results; rfl

/-- The second mask as the region finds it: the argument re-laid as [64, 1, 512]. -/
theorem V_mask_b (c : Dev nD) :
    (V m c main_v1 : S64x1x512.Idx → EReal) = shapeCast S64x1x512 (m ((c : Thread nD τ).loc main_arg3)) shapeCasts_S64x512_S64x1x512 := by
  dsimp only [Gen.V, Gen.hostOps0]; after_results; rfl

/-- The first mask's column block at step `t`: the mask of batch elements `2 t`, `2 t + 1`. -/
theorem iblk_mask_a (c : Dev nD) (t : Fin cfg0.N) (j : Fin 2) (a : Fin 512) :
    iblk m c 2 t (ix3 j a 0) = (m ((c : Thread nD τ).loc main_arg1) : Mask) (ix2 (batchOf t j) a) := by
  show V m c main_v0 (((cfg0.win 2).blk t).view.emb (ix3 j a 0)) = _
  rw [V_mask_a]
  obtain ⟨-, -, ⟨e0, e1, e2⟩, -⟩ := idx_facts t
  refine shapeCast_apply _ _ _ (ix2 (batchOf t j) a) ?_
  rw [Shape.rowMajor_val_two, Shape.rowMajor_val_three]
  show (2 * t.val + j.val) * 512 + a.val
    = ((win0_2.index t (0 : Fin 3) * 2 + 1 * j.val) * 512 + (win0_2.index t (1 : Fin 3) * 512 + 1 * a.val)) * 1 + (win0_2.index t (2 : Fin 3) * 1 + 1 * 0)
  omega

/-- The second mask's row block at step `t`. -/
theorem iblk_mask_b (c : Dev nD) (t : Fin cfg0.N) (j : Fin 2) (c' : Fin 512) :
    iblk m c 3 t (ix3 j 0 c') = (m ((c : Thread nD τ).loc main_arg3) : Mask) (ix2 (batchOf t j) c') := by
  show V m c main_v1 (((cfg0.win 3).blk t).view.emb (ix3 j 0 c')) = _
  rw [V_mask_b]
  obtain ⟨-, -, -, ⟨e0, e1, e2⟩, -⟩ := idx_facts t
  refine shapeCast_apply _ _ _ (ix2 (batchOf t j) c') ?_
  rw [Shape.rowMajor_val_two, Shape.rowMajor_val_three]
  show (2 * t.val + j.val) * 512 + c'.val
    = ((win0_3.index t (0 : Fin 3) * 2 + 1 * j.val) * 1 + (win0_3.index t (1 : Fin 3) * 1 + 1 * 0)) * 512 + (win0_3.index t (2 : Fin 3) * 512 + 1 * c'.val)
  omega

/-- Where an output window's block at step `t` puts its index (j, a, d) in the array: (2 t + j, a, d). -/
theorem emb_out_a (t : Fin cfg0.N) (y : S2x512x512.Idx) :
    ((cfg0.win 4).blk t).view.emb y = (ix3 (batchOf t (y 0)) (y 1) (y 2) : S64x512x512.Idx) := by
  obtain ⟨-, -, -, -, ⟨e0, e1, e2⟩, -⟩ := idx_facts t
  funext k; apply Fin.ext
  match k with
  | ⟨0, _⟩ => show win0_4.index t (0 : Fin 3) * 2 + 1 * (y 0).val = 2 * t.val + (y 0).val; omega
  | ⟨1, _⟩ => show win0_4.index t (1 : Fin 3) * 512 + 1 * (y 1).val = (y 1).val; omega
  | ⟨2, _⟩ => show win0_4.index t (2 : Fin 3) * 512 + 1 * (y 2).val = (y 2).val; omega
theorem emb_out_b (t : Fin cfg0.N) (y : S2x512x512.Idx) :
    ((cfg0.win 5).blk t).view.emb y = (ix3 (batchOf t (y 0)) (y 1) (y 2) : S64x512x512.Idx) := by
  obtain ⟨-, -, -, -, -, ⟨e0, e1, e2⟩⟩ := idx_facts t
  funext k; apply Fin.ext
  match k with
  | ⟨0, _⟩ => show win0_5.index t (0 : Fin 3) * 2 + 1 * (y 0).val = 2 * t.val + (y 0).val; omega
  | ⟨1, _⟩ => show win0_5.index t (1 : Fin 3) * 512 + 1 * (y 1).val = (y 1).val; omega
  | ⟨2, _⟩ => show win0_5.index t (2 : Fin 3) * 512 + 1 * (y 2).val = (y 2).val; omega

/-! ## What each step writes back, and the arrays after the run -/

/-- `attended_a` of the launch contents of the arguments. -/
def resA (c : Dev nD) : Sent :=
  KA (m ((c : Thread nD τ).loc main_arg0)) (m ((c : Thread nD τ).loc main_arg2)) (m ((c : Thread nD τ).loc main_arg3))
/-- `attended_b` of the launch contents of the arguments. -/
def resB (c : Dev nD) : Sent :=
  KB (m ((c : Thread nD τ).loc main_arg0)) (m ((c : Thread nD τ).loc main_arg2)) (m ((c : Thread nD τ).loc main_arg1))

/-- Step `t` writes back block `t` of `attended_a`. -/
theorem flushed_a (c : Dev nD) (t : Fin cfg0.N) :
    (dats m 0 c).flushed 4 t = ((cfg0.win 4).blk t).view.read (Elt Ideal) (resA m c) := by
  rw [Value.flushed4]
  funext y
  show out0_4 (iblk m c 0 t) (iblk m c 1 t) (iblk m c 2 t) (iblk m c 3 t) y = resA m c (((cfg0.win 4).blk t).view.emb y)
  rw [out_a_apply, emb_out_a]
  exact blockA_eq _ _ _ _ _ _ t (iblk_sent_a m c t) (iblk_sent_b m c t) (iblk_mask_b m c t) (y 0) (y 1) (y 2)

/-- Step `t` writes back block `t` of `attended_b`. -/
theorem flushed_b (c : Dev nD) (t : Fin cfg0.N) :
    (dats m 0 c).flushed 5 t = ((cfg0.win 5).blk t).view.read (Elt Ideal) (resB m c) := by
  rw [Value.flushed5]
  funext y
  show out0_5 (iblk m c 0 t) (iblk m c 1 t) (iblk m c 2 t) (iblk m c 3 t) y = resB m c (((cfg0.win 5).blk t).view.emb y)
  rw [out_b_apply, emb_out_b]
  exact blockB_eq _ _ _ _ _ _ t (iblk_sent_a m c t) (iblk_sent_b m c t) (iblk_mask_a m c t) (y 0) (y 1) (y 2)

/-- An index of an output array lies in step `t`'s block iff its batch coordinate is `2 t` or `2 t + 1`. -/
theorem mem_blk_a (t : Fin cfg0.N) (i : S64x512x512.Idx) :
    i ∈ ((cfg0.win 4).blk t).view.set ↔ ∀ a : Fin 3, win0_4.index t a * S2x512x512.size a ≤ (i a).val ∧ (i a).val < win0_4.index t a * S2x512x512.size a + S2x512x512.size a := by
  show i ∈ ((View.whole main_v2_0).slice (win0_4.rect t)).set ↔ _
  rw [View.set_slice_whole, Rect.mem_set_unit]
  exact Iff.rfl
theorem mem_blk_b (t : Fin cfg0.N) (i : S64x512x512.Idx) :
    i ∈ ((cfg0.win 5).blk t).view.set ↔ ∀ a : Fin 3, win0_5.index t a * S2x512x512.size a ≤ (i a).val ∧ (i a).val < win0_5.index t a * S2x512x512.size a + S2x512x512.size a := by
  show i ∈ ((View.whole main_v2_1).slice (win0_5.rect t)).set ↔ _
  rw [View.set_slice_whole, Rect.mem_set_unit]
  exact Iff.rfl

/-- The step whose blocks hold batch element `b`: `b / 2`. -/
def stepOf (b : Fin 64) : Fin cfg0.N := ⟨b.val / 2, by have hN : cfg0.N = 32 := N_0; have := b.isLt; omega⟩

/-- The 32 blocks tile the first output array, so it ends at `attended_a`. -/
theorem final_a (c : Dev nD) : (dats m 0 c).arrAt 4 cfg0.N = resA m c :=
  (dats m 0 c).arrAt_eq_of_cover 4 (resA m c) (fun t _ => flushed_a m c t) fun i => by
    refine ⟨stepOf (i 0), flush0_4 _, ?_⟩
    rw [mem_blk_a]
    obtain ⟨-, -, -, -, ⟨e0, e1, e2⟩, -⟩ := idx_facts (stepOf (i 0))
    have h0 : (i 0).val < 64 := (i 0).isLt
    have h1 : (i 1).val < 512 := (i 1).isLt
    have h2 : (i 2).val < 512 := (i 2).isLt
    have hs : (stepOf (i 0)).val = (i 0).val / 2 := rfl
    intro a
    match a with
    | ⟨0, _⟩ => show win0_4.index (stepOf (i 0)) (0 : Fin 3) * 2 ≤ (i 0).val ∧ (i 0).val < win0_4.index (stepOf (i 0)) (0 : Fin 3) * 2 + 2; omega
    | ⟨1, _⟩ => show win0_4.index (stepOf (i 0)) (1 : Fin 3) * 512 ≤ (i 1).val ∧ (i 1).val < win0_4.index (stepOf (i 0)) (1 : Fin 3) * 512 + 512; omega
    | ⟨2, _⟩ => show win0_4.index (stepOf (i 0)) (2 : Fin 3) * 512 ≤ (i 2).val ∧ (i 2).val < win0_4.index (stepOf (i 0)) (2 : Fin 3) * 512 + 512; omega

/-- And the second at `attended_b`. -/
theorem final_b (c : Dev nD) : (dats m 0 c).arrAt 5 cfg0.N = resB m c :=
  (dats m 0 c).arrAt_eq_of_cover 5 (resB m c) (fun t _ => flushed_b m c t) fun i => by
    refine ⟨stepOf (i 0), flush0_5 _, ?_⟩
    rw [mem_blk_b]
    obtain ⟨-, -, -, -, -, ⟨e0, e1, e2⟩⟩ := idx_facts (stepOf (i 0))
    have h0 : (i 0).val < 64 := (i 0).isLt
    have h1 : (i 1).val < 512 := (i 1).isLt
    have h2 : (i 2).val < 512 := (i 2).isLt
    have hs : (stepOf (i 0)).val = (i 0).val / 2 := rfl
    intro a
    match a with
    | ⟨0, _⟩ => show win0_5.index (stepOf (i 0)) (0 : Fin 3) * 2 ≤ (i 0).val ∧ (i 0).val < win0_5.index (stepOf (i 0)) (0 : Fin 3) * 2 + 2; omega
    | ⟨1, _⟩ => show win0_5.index (stepOf (i 0)) (1 : Fin 3) * 512 ≤ (i 1).val ∧ (i 1).val < win0_5.index (stepOf (i 0)) (1 : Fin 3) * 512 + 512; omega
    | ⟨2, _⟩ => show win0_5.index (stepOf (i 0)) (2 : Fin 3) * 512 ≤ (i 2).val ∧ (i 2).val < win0_5.index (stepOf (i 0)) (2 : Fin 3) * 512 + 512; omega

/-- The kernel's run: both results at their whole-array functions of the launch contents, the arguments unchanged. -/
theorem run : θ_run defs (onTc (τ := τ) (main (F := Ideal))) ⟨m, fun _ => 0, ρ⟩ fun r => ∀ c : Dev nD,
      r.2.mem ((c : Thread nD τ).loc main_v2_0) = resA m c
      ∧ r.2.mem ((c : Thread nD τ).loc main_v2_1) = resB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_a m c), (h c).2.1.trans (final_b m c), (h c).2.2⟩)
    (Value.run_blocks m ρ)

end Cert.CoAttention.Blocks

end
-- ==== Proof.lean ====
/-
  Symmetric co-attention: the kernel against its reference, over the extended reals.

  Both programs form, per batch element, the similarity `sim a c = ∑ d, A a d * B c d`, bias masked positions by
  `(1 - mask) * (-10000)`, and attend in both directions with a softmax: each token of the first sentence over the
  second sentence's tokens, and each token of the second over the first's. The reference divides every softmax weight
  by the row's mass and then contracts with the other sentence; the kernel, which derives both directions from ONE
  similarity matrix, contracts first and multiplies by the reciprocal of the mass afterwards in one direction, and
  multiplies the reciprocal into the weights before contracting in the other. With `k = 1 / mass`:

      ∑ c, (p c / mass) * v c  =  (∑ c, p c * v c) * k  =  ∑ c, (p c * k) * v c.

  On the extended reals these hold when the mass is a nonzero real: the quotient by a nonzero real is the product with
  its reciprocal, and a nonnegative real factor moves across a finite sum whatever the summands are. The mass is such
  a real as soon as the row's scores are real, because the row's maximum is then attained and contributes `exp 0 = 1`
  to the sum; and the scores are real when the inputs are, which the precondition states. Without it the claim fails
  (a row of scores all `-∞` has mass `0`, where one side reads `0` and the other `0 / 0`), so the precondition is used,
  exactly there.

  The modules: `Spec` states the two results as functions of the argument arrays, in the reference's arrangement
  (`GA`, `GB`) and in the kernel's (`KA`, `KB`); `SpecLaws` proves them equal on real inputs; `Finite` reads the
  precondition as "every input entry is real"; `RefValue` reads the reference's run, operation by operation, as
  `GA` and `GB`; `Layout`, `Body` and `Blocks` read the kernel: the body's stores at an index, each grid step's
  output block as a restriction of `KA` / `KB`, and the 32 blocks tiling the 64 batch elements. The narrowing of the
  matrix unit's operands to a shorter float format is the identity on extended reals, which is what the two ledger
  entries state.
-/
import proofs.«401247_j30502857736672_3_alg».proof.Defs
import proofs.«401247_j30502857736672_3_alg».proof.Proof.Gen.Kernel
import proofs.«401247_j30502857736672_3_alg».proof.Proof.Gen.Kernel.Skeleton
import proofs.«401247_j30502857736672_3_alg».proof.Proof.Gen.Kernel.Launch
import proofs.«401247_j30502857736672_3_alg».proof.Proof.Gen.Kernel.Points
import proofs.«401247_j30502857736672_3_alg».proof.Proof.Gen.Kernel.Frame
import proofs.«401247_j30502857736672_3_alg».proof.Proof.Gen.KernelIdeal
import proofs.«401247_j30502857736672_3_alg».proof.Proof.Gen.KernelIdeal.Skeleton
import proofs.«401247_j30502857736672_3_alg».proof.Proof.Gen.KernelIdeal.Launch
import proofs.«401247_j30502857736672_3_alg».proof.Proof.Gen.KernelIdeal.Points
import proofs.«401247_j30502857736672_3_alg».proof.Proof.Gen.KernelIdeal.Frame
import proofs.«401247_j30502857736672_3_alg».proof.Proof.Gen.ReferenceIdeal
import proofs.«401247_j30502857736672_3_alg».proof.Proof.Gen.KernelIdeal.Value
import proofs.«401247_j30502857736672_3_alg».proof.Proof.Gen.ReferenceIdeal.Run
import proofs.«401247_j30502857736672_3_alg».proof.Proof.Gen.ReferenceIdeal.Read
import proofs.«401247_j30502857736672_3_alg».proof.Proof.Gen.Pre_finite_inputs
import proofs.«401247_j30502857736672_3_alg».proof.Proof.Spec
import proofs.«401247_j30502857736672_3_alg».proof.Proof.SpecLaws
import proofs.«401247_j30502857736672_3_alg».proof.Proof.Finite
import proofs.«401247_j30502857736672_3_alg».proof.Proof.RefValue
import proofs.«401247_j30502857736672_3_alg».proof.Proof.Blocks
import Idealize.ShloMosaic.Adequacy
import Idealize.ShloMosaic.Init

noncomputable section

namespace Cert.Proof

open Idealize.ShloMosaic Idealize.SL.Sem Cert.CoAttention

/-- The kernel as printed runs to the end with its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a sequence of host operations: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Each batch element's softmax weights are narrowed for the matrix unit and widened again before their row sum: on
    extended reals that round trip is the identity, once per batch element of a grid step. -/
theorem preserves : Cert.preserves_Kernel_KernelIdeal :=
  ⟨IdealRules.truncf_extf.statement Cert.KernelIdeal.S512x512 .f32 .bf16,
   IdealRules.truncf_extf.statement Cert.KernelIdeal.S512x512 .f32 .bf16⟩

/-- From memories that agree on the four arguments, both programs end with `attended_a = GA` and `attended_b = GB`
    of the arguments: the reference by its run read back, the kernel by its blocks (`KA`, `KB`) and the law that
    joins the two arrangements on real inputs. -/
theorem algebraic : Cert.algebraic_KernelIdeal_ReferenceIdeal := by
  intro m ρ m' ρ' hpre hagree
  refine ⟨fun c => GA (m ((c.tc : Thread Cert.KernelIdeal.nD Cert.KernelIdeal.τ).loc Cert.KernelIdeal.main_arg0))
                      (m ((c.tc : Thread Cert.KernelIdeal.nD Cert.KernelIdeal.τ).loc Cert.KernelIdeal.main_arg2))
                      (m ((c.tc : Thread Cert.KernelIdeal.nD Cert.KernelIdeal.τ).loc Cert.KernelIdeal.main_arg3)),
          fun c => GB (m ((c.tc : Thread Cert.KernelIdeal.nD Cert.KernelIdeal.τ).loc Cert.KernelIdeal.main_arg0))
                      (m ((c.tc : Thread Cert.KernelIdeal.nD Cert.KernelIdeal.τ).loc Cert.KernelIdeal.main_arg2))
                      (m ((c.tc : Thread Cert.KernelIdeal.nD Cert.KernelIdeal.τ).loc Cert.KernelIdeal.main_arg1)), ?_, ?_⟩
  · refine (θ_run Cert.KernelIdeal.defs _ _).mono (fun r h c => ?_) (Cert.CoAttention.Blocks.run m ρ)
    obtain ⟨h0, h1, h2, h3⟩ := allReal_of_finite_inputs _ _ _ _ (hpre c)
    exact ⟨(h c).1.trans (KA_eq_GA _ _ _ h0 h2 h3), (h c).2.1.trans (KB_eq_GB _ _ _ h0 h2 h1), (h c).2.2⟩
  · refine (θ_run Cert.ReferenceIdeal.defs _ _).mono (fun r h c => ?_) (Cert.ReferenceIdeal.Value.run (F := Ideal) m' ρ')
    refine ⟨(h c).1.trans ?_, (h c).2.1.trans ?_, (h c).2.2⟩
    · rw [Cert.ReferenceIdeal.Read.val_main_v38_eq, ref_attended_a, (hagree c).1, (hagree c).2.2.1, (hagree c).2.2.2]
    · rw [Cert.ReferenceIdeal.Read.val_main_v39_eq, ref_attended_b, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
   frame_kernel, frame_kernelIdeal, frame_referenceIdeal, preserves, algebraic⟩

end Cert.Proof

end
